-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x80 : Shape := ⟨2, ![524288, 80]⟩
abbrev S_ : Shape := ⟨0, ![]⟩

class Facts : Prop where
  bcast_S_S524288x80 : S_.BroadcastsInDim S524288x80 (![] : Fin 0 → Fin S524288x80.rank)
  reducesTo_S524288x80_S_d0_1 : S524288x80.ReducesTo [0, 1] S_
  h_S_ : 0 < S_.numel

variable [Facts]

def fn {F : FTy → Type} [FloatOps F] (main_arg0 : FVec F S524288x80 .f32) (main_arg1 : FVec F S524288x80 .f32) (main_arg2 : FVec F S524288x80 .f32) : IVec S_ 1 :=
  let main_v0 : FVec F S524288x80 .f32 := Host.absf main_arg0
  let main_cst : FVec F S_ .f32 := constant S_ .f32 0x7F800000#32
  let main_v1 : FVec F S524288x80 .f32 := broadcastInDim S524288x80 ![] bcast_S_S524288x80 main_cst
  let main_v2 : IVec S524288x80 1 := cmpf .olt main_v0 main_v1
  let main_c : IVec S_ 1 := constantI S_ 1 1#1
  let main_v3 : IVec S_ 1 := (fun x v => Host.reduce IntOp.andi x v reducesTo_S524288x80_S_d0_1 h_S_) main_v2 main_c
  let main_v4 : FVec F S524288x80 .f32 := Host.absf main_arg1
  let main_cst_0 : FVec F S_ .f32 := constant S_ .f32 0x7F800000#32
  let main_v5 : FVec F S524288x80 .f32 := broadcastInDim S524288x80 ![] bcast_S_S524288x80 main_cst_0
  let main_v6 : IVec S524288x80 1 := cmpf .olt main_v4 main_v5
  let main_c_1 : IVec S_ 1 := constantI S_ 1 1#1
  let main_v7 : IVec S_ 1 := (fun x v => Host.reduce IntOp.andi x v reducesTo_S524288x80_S_d0_1 h_S_) main_v6 main_c_1
  let main_v8 : IVec S_ 1 := andi main_v3 main_v7
  let main_v9 : FVec F S524288x80 .f32 := Host.absf main_arg2
  let main_cst_2 : FVec F S_ .f32 := constant S_ .f32 0x7F800000#32
  let main_v10 : FVec F S524288x80 .f32 := broadcastInDim S524288x80 ![] bcast_S_S524288x80 main_cst_2
  let main_v11 : IVec S524288x80 1 := cmpf .olt main_v9 main_v10
  let main_c_3 : IVec S_ 1 := constantI S_ 1 1#1
  let main_v12 : IVec S_ 1 := (fun x v => Host.reduce IntOp.andi x v reducesTo_S524288x80_S_d0_1 h_S_) main_v11 main_c_3
  let main_v13 : IVec S_ 1 := andi main_v8 main_v12
  main_v13
-- ==== Kernel.lean ====
abbrev S524288x80 : Shape := ⟨2, ![524288, 80]⟩
abbrev S1x128 : Shape := ⟨2, ![1, 128]⟩
abbrev S1x1 : Shape := ⟨2, ![1, 1]⟩
abbrev S8192x80 : Shape := ⟨2, ![8192, 80]⟩
abbrev S8192 : Shape := ⟨1, ![8192]⟩
abbrev S8192x1 : Shape := ⟨2, ![8192, 1]⟩
abbrev S1 : Shape := ⟨1, ![1]⟩
abbrev S_ : Shape := ⟨0, ![]⟩
abbrev S1x10 : Shape := ⟨2, ![1, 10]⟩
abbrev S10 : Shape := ⟨1, ![10]⟩
abbrev S2 : Shape := ⟨1, ![2]⟩

abbrev nBuf : Space → Nat
  | .hbm => 42
  | .vmem => 16
  | .smem => 0
  | _ => 0

abbrev bufTy : (tb : Table) → Fin (tcTables nBuf tb) → BufTy
  | .hbm, ⟨0, _⟩ => ⟨S524288x80, .f32⟩
  | .hbm, ⟨1, _⟩ => ⟨S524288x80, .f32⟩
  | .hbm, ⟨2, _⟩ => ⟨S524288x80, .f32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x10, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S10, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S10, .f32⟩
  | .hbm, ⟨28, _⟩ => ⟨S10, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S8192x80, .f32⟩
  | .local _ .vmem, ⟨3, _⟩ => ⟨S8192x80, .f32⟩
  | .local _ .vmem, ⟨4, _⟩ => ⟨S8192x80, .f32⟩
  | .local _ .vmem, ⟨5, _⟩ => ⟨S8192x80, .f32⟩
  | .local _ .vmem, ⟨6, _⟩ => ⟨S1x128, .f32⟩
  | .local _ .vmem, ⟨7, _⟩ => ⟨S1x1, .f32⟩
  | .local _ .vmem, ⟨8, _⟩ => ⟨S8192x80, .f32⟩
  | .local _ .vmem, ⟨9, _⟩ => ⟨S8192x80, .f32⟩
  | .local _ .vmem, ⟨10, _⟩ => ⟨S8192x80, .f32⟩
  | .local _ .vmem, ⟨11, _⟩ => ⟨S8192x80, .f32⟩
  | .local _ .vmem, ⟨12, _⟩ => ⟨S8192x80, .f32⟩
  | .local _ .vmem, ⟨13, _⟩ => ⟨S8192x80, .f32⟩
  | .local _ .vmem, ⟨14, _⟩ => ⟨S1x128, .f32⟩
  | .local _ .vmem, ⟨15, _⟩ => ⟨S1x1, .f32⟩
  | _, _ => ⟨S524288x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  inb_S8192x80_S8192x80_0_0 : ∀ a, (![0, 0] : Fin 2 → Nat) a + S8192x80.size a ≤ S8192x80.size a
  h_S8192x80 : 0 < S8192x80.numel
  natLt_1_32 : 1 < 32
  iota_S1x128_d1_w32 : S1x128.Iotas .tc 32 [1]
  reduces_S8192x80_S8192 : S8192x80.Reduces [1] S8192
  shapeCasts_S8192_S8192x1 : S8192.ShapeCasts S8192x1
  reduces_S8192x1_S1 : S8192x1.Reduces [0] S1
  shapeCasts_S1_S1x1 : S1.ShapeCasts S1x1
  broadcasts_S1x1_S1x128 : S1x1.Broadcasts S1x128
  shapeCasts_S1x128_S1x128 : S1x128.ShapeCasts S1x128
  shapeCasts_S1x1_S1x1 : S1x1.ShapeCasts S1x1
  shapeCasts_S1x1_S_ : S1x1.ShapeCasts S_
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  broadcasts_S1x1_S8192x80 : S1x1.Broadcasts S8192x80
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  scatter_S1x128_S2_S10_0_0_01_0_wf : ScatterDims.WF S1x128 S2 S10 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x80.size a ≤ S524288x80.size a
  hwx0_0 : ∀ i : grid0.Coords, EltTy.bits .f32 = 32 ∨ (Rect.block (s := S524288x80) S8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x80.size a ≤ S524288x80.size a
  hwx0_1 : ∀ i : grid0.Coords, EltTy.bits .f32 = 32 ∨ (Rect.block (s := S524288x80) S8192x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x80.size a ≤ S524288x80.size a
  hwx0_2 : ∀ i : grid0.Coords, EltTy.bits .f32 = 32 ∨ (Rect.block (s := S524288x80) S8192x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x80.size a ≤ S524288x80.size a
  hwx1_0 : ∀ i : grid1.Coords, EltTy.bits .f32 = 32 ∨ (Rect.block (s := S524288x80) S8192x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x80.size a ≤ S524288x80.size a
  hwx1_1 : ∀ i : grid1.Coords, EltTy.bits .f32 = 32 ∨ (Rect.block (s := S524288x80) S8192x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x80.size a ≤ S524288x80.size a
  hwx1_2 : ∀ i : grid1.Coords, EltTy.bits .f32 = 32 ∨ (Rect.block (s := S524288x80) S8192x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf

abbrev win0_0 : Pipeline.Window sig grid0 :=
  Pipeline.Window.ofSpec (Memref.whole main_arg0) S8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8192x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8192x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S524288x80 : Shape := ⟨2, ![524288, 80]⟩
abbrev S_ : Shape := ⟨0, ![]⟩
abbrev S10 : Shape := ⟨1, ![10]⟩
abbrev S41943040 : Shape := ⟨1, ![41943040]⟩
abbrev S41943040x1 : Shape := ⟨2, ![41943040, 1]⟩
abbrev S524288x80x1 : Shape := ⟨3, ![524288, 80, 1]⟩

abbrev nBuf : Space → Nat
  | .hbm => 92
  | .vmem => 0
  | .smem => 0
  | _ => 0

abbrev bufTy : (tb : Table) → Fin (tcTables nBuf tb) → BufTy
  | .hbm, ⟨0, _⟩ => ⟨S524288x80, .f32⟩
  | .hbm, ⟨1, _⟩ => ⟨S524288x80, .f32⟩
  | .hbm, ⟨2, _⟩ => ⟨S524288x80, .f32⟩
  | .hbm, ⟨3, _⟩ => ⟨S524288x80, .f32⟩
  | .hbm, ⟨4, _⟩ => ⟨S524288x80, .f32⟩
  | .hbm, ⟨5, _⟩ => ⟨S_, .f32⟩
  | .hbm, ⟨6, _⟩ => ⟨S524288x80, .f32⟩
  | .hbm, ⟨7, _⟩ => ⟨S524288x80, .f32⟩
  | .hbm, ⟨8, _⟩ => ⟨S_, .f32⟩
  | .hbm, ⟨9, _⟩ => ⟨S524288x80, .f32⟩
  | .hbm, ⟨10, _⟩ => ⟨S524288x80, .f32⟩
  | .hbm, ⟨11, _⟩ => ⟨S524288x80, .f32⟩
  | .hbm, ⟨12, _⟩ => ⟨S524288x80, .f32⟩
  | .hbm, ⟨13, _⟩ => ⟨S_, .f32⟩
  | .hbm, ⟨14, _⟩ => ⟨S524288x80, .f32⟩
  | .hbm, ⟨15, _⟩ => ⟨S524288x80, .i1⟩
  | .hbm, ⟨16, _⟩ => ⟨S524288x80, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S524288x80, .f32⟩
  | .hbm, ⟨23, _⟩ => ⟨S524288x80, .f32⟩
  | .hbm, ⟨24, _⟩ => ⟨S524288x80, .f32⟩
  | .hbm, ⟨25, _⟩ => ⟨S524288x80, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S524288x80, .i32⟩
  | .hbm, ⟨30, _⟩ => ⟨S524288x80, .i32⟩
  | .hbm, ⟨31, _⟩ => ⟨S_, .i32⟩
  | .hbm, ⟨32, _⟩ => ⟨S524288x80, .i32⟩
  | .hbm, ⟨33, _⟩ => ⟨S524288x80, .i32⟩
  | .hbm, ⟨34, _⟩ => ⟨S_, .f32⟩
  | .hbm, ⟨35, _⟩ => ⟨S10, .f32⟩
  | .hbm, ⟨36, _⟩ => ⟨S41943040, .i32⟩
  | .hbm, ⟨37, _⟩ => ⟨S41943040, .f32⟩
  | .hbm, ⟨38, _⟩ => ⟨S_, .i32⟩
  | .hbm, ⟨39, _⟩ => ⟨S41943040, .i32⟩
  | .hbm, ⟨40, _⟩ => ⟨S41943040, .i1⟩
  | .hbm, ⟨41, _⟩ => ⟨S_, .i32⟩
  | .hbm, ⟨42, _⟩ => ⟨S41943040, .i32⟩
  | .hbm, ⟨43, _⟩ => ⟨S41943040, .i32⟩
  | .hbm, ⟨44, _⟩ => ⟨S41943040, .i32⟩
  | .hbm, ⟨45, _⟩ => ⟨S41943040x1, .i32⟩
  | .hbm, ⟨46, _⟩ => ⟨S10, .f32⟩
  | .hbm, ⟨47, _⟩ => ⟨S_, .f32⟩
  | .hbm, ⟨48, _⟩ => ⟨S10, .f32⟩
  | .hbm, ⟨49, _⟩ => ⟨S10, .i1⟩
  | .hbm, ⟨50, _⟩ => ⟨S10, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S10, .f32⟩
  | .hbm, ⟨57, _⟩ => ⟨S10, .f32⟩
  | .hbm, ⟨58, _⟩ => ⟨S_, .f32⟩
  | .hbm, ⟨59, _⟩ => ⟨S_, .f32⟩
  | .hbm, ⟨60, _⟩ => ⟨S10, .f32⟩
  | .hbm, ⟨61, _⟩ => ⟨S10, .f32⟩
  | .hbm, ⟨62, _⟩ => ⟨S_, .i32⟩
  | .hbm, ⟨63, _⟩ => ⟨S524288x80, .i32⟩
  | .hbm, ⟨64, _⟩ => ⟨S524288x80, .i1⟩
  | .hbm, ⟨65, _⟩ => ⟨S_, .i32⟩
  | .hbm, ⟨66, _⟩ => ⟨S524288x80, .i32⟩
  | .hbm, ⟨67, _⟩ => ⟨S524288x80, .i32⟩
  | .hbm, ⟨68, _⟩ => ⟨S524288x80, .i32⟩
  | .hbm, ⟨69, _⟩ => ⟨S524288x80x1, .i32⟩
  | .hbm, ⟨70, _⟩ => ⟨S524288x80, .f32⟩
  | .hbm, ⟨71, _⟩ => ⟨S524288x80, .f32⟩
  | .hbm, ⟨72, _⟩ => ⟨S_, .f32⟩
  | .hbm, ⟨73, _⟩ => ⟨S_, .f32⟩
  | .hbm, ⟨74, _⟩ => ⟨S524288x80, .f32⟩
  | .hbm, ⟨75, _⟩ => ⟨S524288x80, .f32⟩
  | .hbm, ⟨76, _⟩ => ⟨S_, .f32⟩
  | .hbm, ⟨77, _⟩ => ⟨S524288x80, .f32⟩
  | .hbm, ⟨78, _⟩ => ⟨S524288x80, .f32⟩
  | .hbm, ⟨79, _⟩ => ⟨S524288x80, .f32⟩
  | .hbm, ⟨80, _⟩ => ⟨S524288x80, .f32⟩
  | .hbm, ⟨81, _⟩ => ⟨S524288x80, .f32⟩
  | .hbm, ⟨82, _⟩ => ⟨S524288x80, .f32⟩
  | .hbm, ⟨83, _⟩ => ⟨S524288x80, .f32⟩
  | .hbm, ⟨84, _⟩ => ⟨S524288x80, .f32⟩
  | .hbm, ⟨85, _⟩ => ⟨S524288x80, .f32⟩
  | .hbm, ⟨86, _⟩ => ⟨S524288x80, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S524288x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_c_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_call1_v0 : Ref sig .tc := ⟨.hbm, 59, rfl⟩
abbrev main_call1_v1 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_c_14 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_17 : Ref sig .tc := ⟨.hbm, 87, rfl⟩
abbrev main_v58 : Ref sig .tc := ⟨.hbm, 88, rfl⟩
abbrev main_v59 : Ref sig .tc := ⟨.hbm, 89, rfl⟩
abbrev main_cst_18 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  bcast_S_S524288x80 : S_.BroadcastsInDim S524288x80 (![] : Fin 0 → Fin S524288x80.rank)
  reducesTo_S524288x80_S_d0_1 : S524288x80.ReducesTo [0, 1] S_
  h_S_ : 0 < S_.numel
  bcast_S_S10 : S_.BroadcastsInDim S10 (![] : Fin 0 → Fin S10.rank)
  shapeCasts_S524288x80_S41943040 : S524288x80.ShapeCasts S41943040
  bcast_S_S41943040 : S_.BroadcastsInDim S41943040 (![] : Fin 0 → Fin S41943040.rank)
  bcast_S41943040_S41943040x1_0 : S41943040.BroadcastsInDim S41943040x1 (![0] : Fin 1 → Fin S41943040x1.rank)
  reducesTo_S10_S_d0 : S10.ReducesTo [0] S_
  bcast_S524288x80_S524288x80x1_0_1 : S524288x80.BroadcastsInDim S524288x80x1 (![0, 1] : Fin 2 → Fin S524288x80x1.rank)
  scatter_S10_S41943040x1_S41943040_n_0_0_1_wf : ScatterDims.WF S10 S41943040x1 S41943040 [] [0] [0] 1
  gather_S10_S524288x80x1_S524288x80_n_0_n_n_0_2_1_wf : GatherDims.WF S10 S524288x80x1 S524288x80 [] [0] [] [0] [] 2 ![1]

variable [Facts₀]

def scatter_S10_S41943040x1_S41943040_n_0_0_1 : ScatterDims S10 S41943040x1 S41943040 where
  updateWindowDims := []
  insertedWindowDims := [0]
  scatterDimsToOperandDims := [0]
  indexVectorDim := 1
  wf := scatter_S10_S41943040x1_S41943040_n_0_0_1_wf
def gather_S10_S524288x80x1_S524288x80_n_0_n_n_0_2_1 : GatherDims S10 S524288x80x1 S524288x80 where
  offsetDims := []
  collapsedSliceDims := [0]
  operandBatchingDims := []
  startIndicesBatchingDims := []
  startIndexMap := [0]
  indexVectorDim := 2
  sliceSizes := ![1]
  wf := gather_S10_S524288x80x1_S524288x80_n_0_n_n_0_2_1_wf

class Facts : Prop extends Facts₀ where

variable [Facts]
-- ==== Proof.Spec.lean ====
/-
  The mathematics both programs compute, stated once over the three whole input arrays
  (logits `x`, targets `t`, label weights `l`, each 524288 × 80, entries extended reals).

  Per entry: the validity indicator `vld l` (1 where the label weight is positive, else 0); the
  gradient-magnitude bin `bin x t` = clip (⌊10 · |σ(x) − t|⌋, 0, 9) as a 32-bit word; the indicator `hit k b`
  that bin word `k` is bin `b`; the stable binary cross-entropy `bce x t` = max(x,0) − x·t + log1p(exp(0 − |x|)).

  Over the arrays: `cnt b` the number of valid entries in bin `b` (ten bins), `tot` the number of valid
  entries, the adjusted weight `wadj b` = (max(tot,1) / max(cnt b,1) on non-empty bins, 0 on empty ones) divided by
  the number of non-empty bins (at least 1), and the loss `(∑ᵢ wadj(binᵢ) · vldᵢ · bceᵢ) / max(tot,1) · 1`, the
  weight of an entry's bin written as the one-hot sum `pick` over the ten bins.
-/
import Idealize.ShloMosaic.PureOps.Ideal
import Idealize.ShloMosaic.Lib.ValueIdx

noncomputable section

namespace Ghmc

open Idealize.ShloMosaic

/-- An entry: a float read at the ideal instance, an extended real. -/
abbrev R : Type := Ideal .f32

/-- The shape of each input array. -/
abbrev Data : Shape := ⟨2, ![524288, 80]⟩

/-- The three float constants the programs use, as the words they print. -/
def zeroF : R := FloatOps.ofBits (F := Ideal) .f32 0x00000000#32
def oneF : R := FloatOps.ofBits (F := Ideal) .f32 0x3F800000#32
def tenF : R := FloatOps.ofBits (F := Ideal) .f32 0x41200000#32

/-- 1 where the label weight is positive, else 0. -/
def vld (l : R) : R :=
  FloatOps.sitofp (F := Ideal) .f32 (BitVec.setWidth 32 (FloatOps.cmpf (F := Ideal) .ogt l zeroF))

/-- The bin of an entry: clip (⌊10 · |σ(x) − t|⌋, 0, 9), a 32-bit word. -/
def bin (x t : R) : BitVec 32 :=
  IntOp.minsi 9#32 (IntOp.maxsi 0#32 (FloatOps.fptosi (F := Ideal) 32
    (FloatOps.floor (FloatOps.mulf (FloatOps.absf (FloatOps.subf (FloatOps.logistic x) t)) tenF))))

/-- 1 when the bin word `k` is `b`, else 0. -/
def hit (k b : BitVec 32) : R :=
  FloatOps.sitofp (F := Ideal) .f32 (BitVec.setWidth 32 (IntOp.cmpi .eq k b))

/-- The stable binary cross-entropy with logits of one entry. -/
def bce (x t : R) : R :=
  FloatOps.addf (FloatOps.subf (FloatOps.maximumf x zeroF) (FloatOps.mulf x t))
    (FloatOps.log1p (FloatOps.exp (FloatOps.subf zeroF (FloatOps.absf x))))

/-- The word of bin `b`, one of the ten. -/
def binw (b : Fin 10) : BitVec 32 := BitVec.ofNat 32 b.val

/-- The entry of a ten-bin table `w` that the bin word `k` selects, as the sum over the ten bins of the
    indicator times the entry (one term survives when `k` is one of the ten words). -/
def pick (k : BitVec 32) (w : Fin 10 → R) : R := ∑ b : Fin 10, hit k (binw b) * w b

/-- The adjusted weight of bin `b` from the ten counts `c` and the number of valid entries `n`:
    `max(n, 1) / max(c b, 1)` when `c b > 0` and 0 otherwise, divided by the number of non-empty bins (at least 1). -/
def wadjOf (c : Fin 10 → R) (n : R) (b : Fin 10) : R :=
  FloatOps.hostDivf
    (Scalar.select (FloatOps.cmpf (F := Ideal) .ogt (c b) zeroF)
      (FloatOps.hostDivf (FloatOps.maximumf n oneF) (FloatOps.maximumf (c b) oneF)) zeroF)
    (FloatOps.maximumf (∑ b' : Fin 10, FloatOps.uitofp (F := Ideal) .f32 (FloatOps.cmpf (F := Ideal) .ogt (c b') zeroF)) oneF)

variable (x t l : Data.Idx → R)

/-- The number of valid entries whose bin is `b`. -/
def cnt (b : Fin 10) : R := ∑ i : Data.Idx, hit (bin (x i) (t i)) (binw b) * vld (l i)

/-- The number of valid entries. -/
def tot : R := ∑ i : Data.Idx, vld (l i)

/-- The adjusted weight of bin `b` for these arrays. -/
def wadj (b : Fin 10) : R := wadjOf (cnt x t l) (tot l) b

/-- The loss: the weighted cross-entropies of the valid entries, summed, over the number of valid entries
    (at least 1), times one. -/
def loss : R :=
  FloatOps.mulf
    (FloatOps.hostDivf (∑ i : Data.Idx, (pick (bin (x i) (t i)) (wadj x t l) * vld (l i)) * bce (x i) (t i))
      (FloatOps.maximumf (tot l) oneF))
    oneF

end Ghmc

end
-- ==== Proof.Algebra.lean ====
/-
  Laws of the specification that use no program: the bin word is one of the ten; the one-hot sum over the ten bins
  picks the selected entry; the whole-array sum is the sum over the 64 row tiles of 8192 rows of 80 lanes; and a
  quotient by a nonzero real commutes with a further factor on the extended reals.
-/
import proofs.«169303_j1829656068729_1_alg».proof.Proof.Spec

noncomputable section

namespace Ghmc

open Idealize.ShloMosaic

/-- The signed clip of any 32-bit word to the interval from 0 to 9 is a word whose signed reading lies in that
    interval: the lower clip returns 0 or a word that is not negative, the upper clip returns 9 or a word that is
    at most 9. -/
theorem clip_toInt (w : BitVec 32) :
    0 ≤ (IntOp.minsi 9#32 (IntOp.maxsi 0#32 w)).toInt ∧ (IntOp.minsi 9#32 (IntOp.maxsi 0#32 w)).toInt ≤ 9 := by
  have h9 : (9#32 : BitVec 32).toInt = 9 := by decide
  have h0 : (0#32 : BitVec 32).toInt = 0 := by decide
  unfold IntOp.minsi IntOp.maxsi
  simp only [BitVec.slt_eq_decide, h9, h0, decide_eq_true_eq]
  split_ifs <;> omega

/-- A 32-bit word whose signed reading lies between 0 and 9 has that same number as its unsigned reading. -/
theorem word_of_toInt (r : BitVec 32) (h0 : 0 ≤ r.toInt) (h9 : r.toInt ≤ 9) :
    r.toNat < 10 ∧ r.toInt = (r.toNat : Int) := by
  have h := BitVec.toInt_eq_toNat_cond r
  have hlt := r.isLt
  split_ifs at h <;> omega

/-- The bin word is one of the ten: the clip keeps it between 0 and 9. -/
theorem bin_lt (x t : R) : (bin x t).toNat < 10 := by
  unfold bin
  exact (word_of_toInt _ (clip_toInt _).1 (clip_toInt _).2).1

/-- The bin word read as a signed integer is the same number (it is below 2³¹). -/
theorem bin_toInt (x t : R) : (bin x t).toInt = ((bin x t).toNat : Int) := by
  unfold bin
  exact (word_of_toInt _ (clip_toInt _).1 (clip_toInt _).2).2

/-- The word of a bin, read unsigned, is the bin's number. -/
theorem binw_toNat (b : Fin 10) : (binw b).toNat = b.val := by
  unfold binw
  rw [BitVec.toNat_ofNat]
  have := b.isLt
  omega

/-- The indicator is 1 on the word's own bin and 0 on the others. -/
theorem hit_eq (k : BitVec 32) (b : Fin 10) : hit k (binw b) = if k.toNat = b.val then 1 else 0 := by
  show (((BitVec.setWidth 32 (BitVec.ofBool (k == binw b))).toInt : ℝ) : EReal) = _
  by_cases h : k.toNat = b.val
  · have hk : k = binw b := BitVec.eq_of_toNat_eq (h.trans (binw_toNat b).symm)
    rw [if_pos h, hk]
    simp
  · have hk : (k == binw b) = false := by
      rw [beq_eq_false_iff_ne]
      intro e
      exact h (e ▸ binw_toNat b)
    rw [if_neg h, hk]
    simp

/-- The one-hot sum picks the entry of the bin the word names. -/
theorem pick_eq (k : BitVec 32) (hk : k.toNat < 10) (w : Fin 10 → R) : pick k w = w ⟨k.toNat, hk⟩ := by
  unfold pick
  rw [Finset.sum_eq_single (⟨k.toNat, hk⟩ : Fin 10)]
  · rw [hit_eq, if_pos rfl, one_mul]
  · intro b _ hb
    rw [hit_eq, if_neg, zero_mul]
    intro e
    exact hb (Fin.ext e.symm)
  · intro h
    exact absurd (Finset.mem_univ _) h

/-- The validity indicator is 0 or 1. -/
theorem vld_cases (l : R) : vld l = 0 ∨ vld l = 1 := by
  show (((BitVec.setWidth 32 (BitVec.ofBool (decide (zeroF < l)))).toInt : ℝ) : EReal) = 0
    ∨ (((BitVec.setWidth 32 (BitVec.ofBool (decide (zeroF < l)))).toInt : ℝ) : EReal) = 1
  by_cases h : zeroF < l
  · right
    simp [h]
  · left
    simp [h]

/-- A row number below 524288 is 8192 times a tile number below 64 plus a row within the tile below 8192, in
    exactly one way: quotient and remainder by 8192. -/
def tileEquiv : Fin 64 × Fin 8192 ≃ Fin 524288 where
  toFun x := ⟨8192 * x.1.val + x.2.val, by have := x.1.isLt; have := x.2.isLt; omega⟩
  invFun a := (⟨a.val / 8192, by have := a.isLt; omega⟩, ⟨a.val % 8192, by omega⟩)
  left_inv x := by
    rcases x with ⟨p, r⟩
    have := p.isLt
    have := r.isLt
    apply Prod.ext
    · apply Fin.ext
      show (8192 * p.val + r.val) / 8192 = p.val
      omega
    · apply Fin.ext
      show (8192 * p.val + r.val) % 8192 = r.val
      omega
  right_inv a := by
    apply Fin.ext
    show 8192 * (a.val / 8192) + a.val % 8192 = a.val
    omega

/-- The whole-array sum is the sum over the 64 tiles of 8192 rows, then the rows, then the 80 lanes. -/
theorem sum_tiles (f : Data.Idx → R) :
    ∑ p : Fin 64, ∑ r : Fin 8192, ∑ q : Fin 80,
      f (ValueIdx.ix2 (⟨8192 * p.val + r.val, by have := p.isLt; have := r.isLt; omega⟩ : Fin 524288) q)
      = ∑ i : Data.Idx, f i := by
  rw [ValueIdx.sum_idx2 f,
    ← Equiv.sum_comp tileEquiv (fun a => ∑ q : Fin 80, f (ValueIdx.ix2 a q)), Fintype.sum_prod_type]
  rfl

/-- A quotient by a nonzero real commutes with a further factor: (a · v) / d = (a / d) · v on the extended reals. -/
theorem div_mul_swap (a v : R) (d : ℝ) (hd : d ≠ 0) :
    FloatOps.hostDivf (F := Ideal) (φ := .f32) (a * v) ((d : EReal) : R) = FloatOps.hostDivf (F := Ideal) (φ := .f32) a ((d : EReal) : R) * v := by
  show Ideal.div (a * v) (d : EReal) = Ideal.div a (d : EReal) * v
  rw [Ideal.div_coe hd, Ideal.div_coe hd, mul_right_comm]

/-- A finite sum of real numbers, each read as an extended real, is the real sum read as an extended real. -/
theorem coe_sum_real {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The constant one is the real number 1. -/
theorem oneF_eq : oneF = ((1 : ℝ) : EReal) := by
  unfold oneF
  simp [Ideal.ofBits, Ideal.ieee, -EReal.coe_mul]
  norm_num

/-- The number of non-empty bins, at least 1, is a real number that is not zero. -/
theorem nne_real (c : Fin 10 → R) :
    ∃ d : ℝ, d ≠ 0 ∧ FloatOps.maximumf (F := Ideal) (φ := .f32)
      (∑ b' : Fin 10, FloatOps.uitofp (F := Ideal) .f32 (FloatOps.cmpf (F := Ideal) .ogt (c b') zeroF)) oneF = ((d : EReal) : R) := by
  refine ⟨max (∑ b' : Fin 10, (((FloatOps.cmpf (F := Ideal) .ogt (c b') zeroF).toNat : ℝ))) 1, ?_, ?_⟩
  · have : (1 : ℝ) ≤ max (∑ b' : Fin 10, (((FloatOps.cmpf (F := Ideal) .ogt (c b') zeroF).toNat : ℝ))) 1 :=
      le_max_right _ _
    intro h0
    rw [h0] at this
    norm_num at this
  · show max (∑ b' : Fin 10, (((FloatOps.cmpf (F := Ideal) .ogt (c b') zeroF).toNat : ℝ) : EReal)) oneF = _
    rw [coe_sum_real, oneF_eq, EReal.coe_strictMono.monotone.map_max]

end Ghmc

end
-- ==== Proof.Blocks.lean ====
/-
  The input windows' blocks are tiles of the arrays. In both regions the grid's point `p` (of 64) reads, through each
  of the three data windows, the block whose index is (p, 0) with extents 8192 × 80: entry (r, q) of the block is entry
  (8192·p + r, q) of the array the region found on entry. The second region's fourth window is the whole 1 × 128 weight
  table at every point (its block index is (0, 0) and the block is the array).
-/
import proofs.«169303_j1829656068729_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Blocks

variable {F : FTy → Type} [FloatOps F]
variable (V : (c : Dev nD) → (b : Ref sig .tc) → Buf (Elt F) ((c : Thread nD τ).loc b))

/-- The first region's index maps over its grid: the three data windows' block index at point `t` is (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The second region's index maps over its grid: the three data windows' block index at point `t` is (t, 0), the
    weight table's is (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Region 0, input window 0: entry (r, q) of point `p`'s block is entry (8192·p + r, q) of the array. -/
theorem iblk0_0_apply (c : Dev nD) (p : Fin cfg0.N) (r : Fin 8192) (q : Fin 80) (h : 8192 * p.val + r.val < 524288) :
    (iblk0 V c 0 p : Vec F S8192x80 .f32) (ValueIdx.ix2 r q)
      = (V c main_arg0 : Vec F S524288x80 .f32) (ValueIdx.ix2 (⟨8192 * p.val + r.val, h⟩ : Fin 524288) q) := by
  unfold iblk0
  show (V c main_arg0 : Vec F S524288x80 .f32) (((cfg0.win 0).blk p).view.emb (ValueIdx.ix2 r q)) = _
  congr 1
  obtain ⟨e00, e01, e10, e11, e20, e21⟩ := idx0 p
  funext a; apply Fin.ext
  match a with
  | ⟨0, _⟩ => show win0_0.index p (0 : Fin 2) * 8192 + 1 * r.val = 8192 * p.val + r.val; omega
  | ⟨1, _⟩ => show win0_0.index p (1 : Fin 2) * 80 + 1 * q.val = q.val; omega

/-- Region 0, input window 1: entry (r, q) of point `p`'s block is entry (8192·p + r, q) of the array. -/
theorem iblk0_1_apply (c : Dev nD) (p : Fin cfg0.N) (r : Fin 8192) (q : Fin 80) (h : 8192 * p.val + r.val < 524288) :
    (iblk0 V c 1 p : Vec F S8192x80 .f32) (ValueIdx.ix2 r q)
      = (V c main_arg1 : Vec F S524288x80 .f32) (ValueIdx.ix2 (⟨8192 * p.val + r.val, h⟩ : Fin 524288) q) := by
  unfold iblk0
  show (V c main_arg1 : Vec F S524288x80 .f32) (((cfg0.win 1).blk p).view.emb (ValueIdx.ix2 r q)) = _
  congr 1
  obtain ⟨e00, e01, e10, e11, e20, e21⟩ := idx0 p
  funext a; apply Fin.ext
  match a with
  | ⟨0, _⟩ => show win0_1.index p (0 : Fin 2) * 8192 + 1 * r.val = 8192 * p.val + r.val; omega
  | ⟨1, _⟩ => show win0_1.index p (1 : Fin 2) * 80 + 1 * q.val = q.val; omega

/-- Region 0, input window 2: entry (r, q) of point `p`'s block is entry (8192·p + r, q) of the array. -/
theorem iblk0_2_apply (c : Dev nD) (p : Fin cfg0.N) (r : Fin 8192) (q : Fin 80) (h : 8192 * p.val + r.val < 524288) :
    (iblk0 V c 2 p : Vec F S8192x80 .f32) (ValueIdx.ix2 r q)
      = (V c main_arg2 : Vec F S524288x80 .f32) (ValueIdx.ix2 (⟨8192 * p.val + r.val, h⟩ : Fin 524288) q) := by
  unfold iblk0
  show (V c main_arg2 : Vec F S524288x80 .f32) (((cfg0.win 2).blk p).view.emb (ValueIdx.ix2 r q)) = _
  congr 1
  obtain ⟨e00, e01, e10, e11, e20, e21⟩ := idx0 p
  funext a; apply Fin.ext
  match a with
  | ⟨0, _⟩ => show win0_2.index p (0 : Fin 2) * 8192 + 1 * r.val = 8192 * p.val + r.val; omega
  | ⟨1, _⟩ => show win0_2.index p (1 : Fin 2) * 80 + 1 * q.val = q.val; omega

/-- Region 1, input window 0: entry (r, q) of point `p`'s block is entry (8192·p + r, q) of the array. -/
theorem iblk1_0_apply (c : Dev nD) (p : Fin cfg1.N) (r : Fin 8192) (q : Fin 80) (h : 8192 * p.val + r.val < 524288) :
    (iblk1 V c 0 p : Vec F S8192x80 .f32) (ValueIdx.ix2 r q)
      = (V c main_arg0 : Vec F S524288x80 .f32) (ValueIdx.ix2 (⟨8192 * p.val + r.val, h⟩ : Fin 524288) q) := by
  unfold iblk1
  show (V c main_arg0 : Vec F S524288x80 .f32) (((cfg1.win 0).blk p).view.emb (ValueIdx.ix2 r q)) = _
  congr 1
  obtain ⟨e00, e01, e10, e11, e20, e21, e30, e31⟩ := idx1 p
  funext a; apply Fin.ext
  match a with
  | ⟨0, _⟩ => show win1_0.index p (0 : Fin 2) * 8192 + 1 * r.val = 8192 * p.val + r.val; omega
  | ⟨1, _⟩ => show win1_0.index p (1 : Fin 2) * 80 + 1 * q.val = q.val; omega

/-- Region 1, input window 1: entry (r, q) of point `p`'s block is entry (8192·p + r, q) of the array. -/
theorem iblk1_1_apply (c : Dev nD) (p : Fin cfg1.N) (r : Fin 8192) (q : Fin 80) (h : 8192 * p.val + r.val < 524288) :
    (iblk1 V c 1 p : Vec F S8192x80 .f32) (ValueIdx.ix2 r q)
      = (V c main_arg1 : Vec F S524288x80 .f32) (ValueIdx.ix2 (⟨8192 * p.val + r.val, h⟩ : Fin 524288) q) := by
  unfold iblk1
  show (V c main_arg1 : Vec F S524288x80 .f32) (((cfg1.win 1).blk p).view.emb (ValueIdx.ix2 r q)) = _
  congr 1
  obtain ⟨e00, e01, e10, e11, e20, e21, e30, e31⟩ := idx1 p
  funext a; apply Fin.ext
  match a with
  | ⟨0, _⟩ => show win1_1.index p (0 : Fin 2) * 8192 + 1 * r.val = 8192 * p.val + r.val; omega
  | ⟨1, _⟩ => show win1_1.index p (1 : Fin 2) * 80 + 1 * q.val = q.val; omega

/-- Region 1, input window 2: entry (r, q) of point `p`'s block is entry (8192·p + r, q) of the array. -/
theorem iblk1_2_apply (c : Dev nD) (p : Fin cfg1.N) (r : Fin 8192) (q : Fin 80) (h : 8192 * p.val + r.val < 524288) :
    (iblk1 V c 2 p : Vec F S8192x80 .f32) (ValueIdx.ix2 r q)
      = (V c main_arg2 : Vec F S524288x80 .f32) (ValueIdx.ix2 (⟨8192 * p.val + r.val, h⟩ : Fin 524288) q) := by
  unfold iblk1
  show (V c main_arg2 : Vec F S524288x80 .f32) (((cfg1.win 2).blk p).view.emb (ValueIdx.ix2 r q)) = _
  congr 1
  obtain ⟨e00, e01, e10, e11, e20, e21, e30, e31⟩ := idx1 p
  funext a; apply Fin.ext
  match a with
  | ⟨0, _⟩ => show win1_2.index p (0 : Fin 2) * 8192 + 1 * r.val = 8192 * p.val + r.val; omega
  | ⟨1, _⟩ => show win1_2.index p (1 : Fin 2) * 80 + 1 * q.val = q.val; omega

/-- Region 1, the weight table's window: its block at every point is the table itself. -/
theorem iblk1_3_apply (c : Dev nD) (p : Fin cfg1.N) (j : Fin 128) :
    (iblk1 V c 3 p : Vec F S1x128 .f32) (ValueIdx.ix2 (0 : Fin 1) j)
      = (V c main_v21 : Vec F S1x128 .f32) (ValueIdx.ix2 (0 : Fin 1) j) := by
  unfold iblk1
  show (V c main_v21 : Vec F S1x128 .f32) (((cfg1.win 3).blk p).view.emb (ValueIdx.ix2 (0 : Fin 1) j)) = _
  congr 1
  obtain ⟨e00, e01, e10, e11, e20, e21, e30, e31⟩ := idx1 p
  funext a; apply Fin.ext
  match a with
  | ⟨0, _⟩ => show win1_3.index p (0 : Fin 2) * 1 + 1 * (0 : Fin 1).val = (0 : Fin 1).val; omega
  | ⟨1, _⟩ => show win1_3.index p (1 : Fin 2) * 128 + 1 * j.val = j.val; omega

end Cert.KernelIdeal.Blocks

end
-- ==== Proof.Finals.lean ====
/-
  The accumulator outputs' arrays after each region. An accumulator's block index never moves, so its block is
  written back once, after the last grid point (point 63), and that block is the whole array: the array ends holding
  what the staging buffer holds after point 63 — for the first region's counts (1 × 128) and total (1 × 1) and for the
  second region's sum (1 × 1).
-/
import proofs.«169303_j1829656068729_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Finals

variable {F : FTy → Type} [FloatOps F]
variable (V : (c : Dev nD) → (b : Ref sig .tc) → Buf (Elt F) ((c : Thread nD τ).loc b))

/-- Point 63 is a point of each grid (both have 64 points). -/
theorem h63_0 : 63 < cfg0.N := by rw [show cfg0.N = 64 from N_0]; decide
theorem h63_1 : 63 < cfg1.N := by rw [show cfg1.N = 64 from N_1]; decide
abbrev last0 : Fin cfg0.N := ⟨63, h63_0⟩
abbrev last1 : Fin cfg1.N := ⟨63, h63_1⟩

/-- What point 63 leaves in the first region's counts block, as contents of its array. -/
abbrev res0_3 (c : Dev nD) : Buf (Elt F) ((c : Thread nD τ).loc main_v0_0) := (outsAt0 V c 63 h63_0).1

/-- The one write-back of the first region's counts block, after point 63, writes what that point left: the block at index (0, 0) is the array. -/
theorem flushed0_3_eq (c : Dev nD) (t : Fin cfg0.N) (hf : (cfg0.win 3).flush t = true) :
    (dat0 V c).flushed 3 t = ((cfg0.win 3).blk t).view.read (Elt F) (res0_3 V c) := by
  have hN : cfg0.N = 64 := N_0
  have h3 : t.val = 63 := by have := (flush0_3 t).mp hf; have := t.isLt; omega
  obtain rfl : t = last0 := Fin.ext h3
  show (cfg0.win 3).cut (grid0.coords last0) ((dat0 V c).after 3 last0) = _
  rw [after0_3]
  have hz' : (fun a => win0_3.index last0 a * main_v0_0.ty.shape.size a) = fun _ => 0 := funext fun a => by fin_cases a <;> decide +kernel
  exact (Memref.read_access_unit_zero (Elt F) main_v0_0 hz' (fun a => by rw [congrFun hz' a]; simp) (res0_3 V c)).symm

/-- So the array of the first region's counts block ends holding what point 63 left: that point's block covers it. -/
theorem final0_3 (c : Dev nD) : ((dat0 V c).arrAt 3 cfg0.N : Vec F S1x128 .f32) = (outsAt0 V c 63 h63_0).1 :=
  (dat0 V c).arrAt_eq_of_cover 3 (res0_3 V c) (flushed0_3_eq V c) fun i =>
    ⟨last0, (flush0_3 last0).mpr rfl, by
      show i ∈ ((View.whole main_v0_0).slice (win0_3.rect last0)).set
      rw [View.set_slice_whole, Rect.mem_set_unit]
      intro a
      have h0 : (i 0 : Nat) < 1 := (i 0).isLt
      have h1 : (i 1 : Nat) < 128 := (i 1).isLt
      match a with
      | ⟨0, _⟩ => show win0_3.index last0 0 * win0_3.size 0 ≤ (i 0 : Nat) ∧ (i 0 : Nat) < win0_3.index last0 0 * win0_3.size 0 + win0_3.xsize (grid0.coords last0) 0
                  rw [show win0_3.index last0 0 * win0_3.size 0 = 0 from by decide +kernel, show win0_3.xsize (grid0.coords last0) 0 = 1 from by decide +kernel]; omega
      | ⟨1, _⟩ => show win0_3.index last0 1 * win0_3.size 1 ≤ (i 1 : Nat) ∧ (i 1 : Nat) < win0_3.index last0 1 * win0_3.size 1 + win0_3.xsize (grid0.coords last0) 1
                  rw [show win0_3.index last0 1 * win0_3.size 1 = 0 from by decide +kernel, show win0_3.xsize (grid0.coords last0) 1 = 128 from by decide +kernel]; omega⟩

/-- What point 63 leaves in the first region's total block, as contents of its array. -/
abbrev res0_4 (c : Dev nD) : Buf (Elt F) ((c : Thread nD τ).loc main_v0_1) := (outsAt0 V c 63 h63_0).2

/-- The one write-back of the first region's total block, after point 63, writes what that point left: the block at index (0, 0) is the array. -/
theorem flushed0_4_eq (c : Dev nD) (t : Fin cfg0.N) (hf : (cfg0.win 4).flush t = true) :
    (dat0 V c).flushed 4 t = ((cfg0.win 4).blk t).view.read (Elt F) (res0_4 V c) := by
  have hN : cfg0.N = 64 := N_0
  have h3 : t.val = 63 := by have := (flush0_4 t).mp hf; have := t.isLt; omega
  obtain rfl : t = last0 := Fin.ext h3
  show (cfg0.win 4).cut (grid0.coords last0) ((dat0 V c).after 4 last0) = _
  rw [after0_4]
  have hz' : (fun a => win0_4.index last0 a * main_v0_1.ty.shape.size a) = fun _ => 0 := funext fun a => by fin_cases a <;> decide +kernel
  exact (Memref.read_access_unit_zero (Elt F) main_v0_1 hz' (fun a => by rw [congrFun hz' a]; simp) (res0_4 V c)).symm

/-- So the array of the first region's total block ends holding what point 63 left: that point's block covers it. -/
theorem final0_4 (c : Dev nD) : ((dat0 V c).arrAt 4 cfg0.N : Vec F S1x1 .f32) = (outsAt0 V c 63 h63_0).2 :=
  (dat0 V c).arrAt_eq_of_cover 4 (res0_4 V c) (flushed0_4_eq V c) fun i =>
    ⟨last0, (flush0_4 last0).mpr rfl, by
      show i ∈ ((View.whole main_v0_1).slice (win0_4.rect last0)).set
      rw [View.set_slice_whole, Rect.mem_set_unit]
      intro a
      have h0 : (i 0 : Nat) < 1 := (i 0).isLt
      have h1 : (i 1 : Nat) < 1 := (i 1).isLt
      match a with
      | ⟨0, _⟩ => show win0_4.index last0 0 * win0_4.size 0 ≤ (i 0 : Nat) ∧ (i 0 : Nat) < win0_4.index last0 0 * win0_4.size 0 + win0_4.xsize (grid0.coords last0) 0
                  rw [show win0_4.index last0 0 * win0_4.size 0 = 0 from by decide +kernel, show win0_4.xsize (grid0.coords last0) 0 = 1 from by decide +kernel]; omega
      | ⟨1, _⟩ => show win0_4.index last0 1 * win0_4.size 1 ≤ (i 1 : Nat) ∧ (i 1 : Nat) < win0_4.index last0 1 * win0_4.size 1 + win0_4.xsize (grid0.coords last0) 1
                  rw [show win0_4.index last0 1 * win0_4.size 1 = 0 from by decide +kernel, show win0_4.xsize (grid0.coords last0) 1 = 1 from by decide +kernel]; omega⟩

/-- What point 63 leaves in the second region's sum block, as contents of its array. -/
abbrev res1_4 (c : Dev nD) : Buf (Elt F) ((c : Thread nD τ).loc main_v22) := (outsAt1 V c 63 h63_1)

/-- The one write-back of the second region's sum block, after point 63, writes what that point left: the block at index (0, 0) is the array. -/
theorem flushed1_4_eq (c : Dev nD) (t : Fin cfg1.N) (hf : (cfg1.win 4).flush t = true) :
    (dat1 V c).flushed 4 t = ((cfg1.win 4).blk t).view.read (Elt F) (res1_4 V c) := by
  have hN : cfg1.N = 64 := N_1
  have h3 : t.val = 63 := by have := (flush1_4 t).mp hf; have := t.isLt; omega
  obtain rfl : t = last1 := Fin.ext h3
  show (cfg1.win 4).cut (grid1.coords last1) ((dat1 V c).after 4 last1) = _
  rw [after1_4]
  have hz' : (fun a => win1_4.index last1 a * main_v22.ty.shape.size a) = fun _ => 0 := funext fun a => by fin_cases a <;> decide +kernel
  exact (Memref.read_access_unit_zero (Elt F) main_v22 hz' (fun a => by rw [congrFun hz' a]; simp) (res1_4 V c)).symm

/-- So the array of the second region's sum block ends holding what point 63 left: that point's block covers it. -/
theorem final1_4 (c : Dev nD) : ((dat1 V c).arrAt 4 cfg1.N : Vec F S1x1 .f32) = (outsAt1 V c 63 h63_1) :=
  (dat1 V c).arrAt_eq_of_cover 4 (res1_4 V c) (flushed1_4_eq V c) fun i =>
    ⟨last1, (flush1_4 last1).mpr rfl, by
      show i ∈ ((View.whole main_v22).slice (win1_4.rect last1)).set
      rw [View.set_slice_whole, Rect.mem_set_unit]
      intro a
      have h0 : (i 0 : Nat) < 1 := (i 0).isLt
      have h1 : (i 1 : Nat) < 1 := (i 1).isLt
      match a with
      | ⟨0, _⟩ => show win1_4.index last1 0 * win1_4.size 0 ≤ (i 0 : Nat) ∧ (i 0 : Nat) < win1_4.index last1 0 * win1_4.size 0 + win1_4.xsize (grid1.coords last1) 0
                  rw [show win1_4.index last1 0 * win1_4.size 0 = 0 from by decide +kernel, show win1_4.xsize (grid1.coords last1) 0 = 1 from by decide +kernel]; omega
      | ⟨1, _⟩ => show win1_4.index last1 1 * win1_4.size 1 ≤ (i 1 : Nat) ∧ (i 1 : Nat) < win1_4.index last1 1 * win1_4.size 1 + win1_4.xsize (grid1.coords last1) 1
                  rw [show win1_4.index last1 1 * win1_4.size 1 = 0 from by decide +kernel, show win1_4.xsize (grid1.coords last1) 1 = 1 from by decide +kernel]; omega⟩

end Cert.KernelIdeal.Finals

end
-- ==== Proof.Hist.lean ====
/-
  The first region's value. Its grid has 64 points; point `p` reads rows 8192·p … 8192·p + 8191 of the three
  input arrays. The two outputs' blocks never move: point 0 resets them, every point adds its tile's contribution,
  and the write-back after point 63 leaves, in lane `b` < 10 of the 1 × 128 array, the number of valid entries of bin
  `b`, and in the 1 × 1 array the number of valid entries, over the whole arrays the region found on entry.
-/
import proofs.«169303_j1829656068729_1_alg».proof.Proof.Gen.KernelIdeal.Frame
import proofs.«169303_j1829656068729_1_alg».proof.Proof.Algebra
import proofs.«169303_j1829656068729_1_alg».proof.Proof.Blocks
import proofs.«169303_j1829656068729_1_alg».proof.Proof.Finals
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Cert.KernelIdeal Cert.KernelIdeal.Gen

namespace Cert.KernelIdeal.Hist

/-! ## What each case of the body leaves in the two blocks -/

section Pieces
variable {F : FTy → Type} [FloatOps F]

theorem hz : (![0, 0] : Fin 2 → Nat) = fun _ => 0 := funext fun a => by fin_cases a <;> rfl

/-- The lane numbers 0 … 127 of a 1 × 128 block. -/
abbrev lanes : IVec S1x128 32 := iota .tc S1x128 32 [1] iota_S1x128_d1_w32

/-- A tile's contribution to the counts block, from its blocks of the three arrays: the chain through the ten bins,
    bin `j` adding (lane = `j`) · (the tile's number of valid entries of bin `j`). -/
def tileCounts (x t l : Vec F S8192x80 .f32) : FVec F S1x128 .f32 :=
  k0_pay13 (k0_pay5 l) (k0_pay6 x t) lanes
    (k0_pay11 (k0_pay5 l) (k0_pay6 x t) lanes
      (k0_pay9 (k0_pay5 l) (k0_pay6 x t) lanes (k0_pay7 x t l) k0_pay8) k0_pay10) k0_pay12

/-- A tile's rows' numbers of valid entries. -/
def tileRows (l : Vec F S8192x80 .f32) : FVec F S8192 .f32 := k0_pay14 (k0_pay5 l)

/-- After the first point the counts block holds the zero block plus the tile's contribution. -/
theorem out_A_3 (c : Dev nD) (i : grid0.Coords) (a1 : Memref sig .tc .vmem S8192x80 .f32) (h1 : a1.IsWhole)
    (a2 : Memref sig .tc .vmem S8192x80 .f32) (h2 : a2.IsWhole) (a3 : Memref sig .tc .vmem S8192x80 .f32) (h3 : a3.IsWhole)
    (a4 : Memref sig .tc .vmem S1x128 .f32) (h4 : a4.IsWhole) (a5 : Memref sig .tc .vmem S1x1 .f32) (h5 : a5.IsWhole)
    (hc : cond0_0 i) (x0 x1 x2 : Vec F S8192x80 .f32) :
    out0_A_3 c i a1 h1 a2 h2 a3 h3 a4 h4 a5 h5 hc x0 x1 x2 = k0_pay1 (tileCounts x0 x1 x2) k0_pay3 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  unfold tileCounts lanes
  simp only [View.readAt_eq_ld, h1.read_unread, h2.read_unread, h3.read_unread, View.ld_unit_zero (S := S8192x80) hz, shapeCast_self]

/-- After the first point the total block holds the zero block plus the tile's total. -/
theorem out_A_4 (c : Dev nD) (i : grid0.Coords) (a1 : Memref sig .tc .vmem S8192x80 .f32) (h1 : a1.IsWhole)
    (a2 : Memref sig .tc .vmem S8192x80 .f32) (h2 : a2.IsWhole) (a3 : Memref sig .tc .vmem S8192x80 .f32) (h3 : a3.IsWhole)
    (a4 : Memref sig .tc .vmem S1x128 .f32) (h4 : a4.IsWhole) (a5 : Memref sig .tc .vmem S1x1 .f32) (h5 : a5.IsWhole)
    (hc : cond0_0 i) (x0 x1 x2 : Vec F S8192x80 .f32) :
    out0_A_4 c i a1 h1 a2 h2 a3 h3 a4 h4 a5 h5 hc x0 x1 x2 = k0_pay2 (tileRows x2) k0_pay4 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  unfold tileRows
  simp only [View.readAt_eq_ld, h1.read_unread, h2.read_unread, h3.read_unread, View.ld_unit_zero (S := S8192x80) hz, shapeCast_self]

/-- After a later point the counts block holds what it held plus the tile's contribution. -/
theorem out_B_3 (c : Dev nD) (i : grid0.Coords) (a1 : Memref sig .tc .vmem S8192x80 .f32) (h1 : a1.IsWhole)
    (a2 : Memref sig .tc .vmem S8192x80 .f32) (h2 : a2.IsWhole) (a3 : Memref sig .tc .vmem S8192x80 .f32) (h3 : a3.IsWhole)
    (a4 : Memref sig .tc .vmem S1x128 .f32) (h4 : a4.IsWhole) (a5 : Memref sig .tc .vmem S1x1 .f32) (h5 : a5.IsWhole)
    (hc : ¬cond0_0 i) (x0 x1 x2 : Vec F S8192x80 .f32) (xo3 : Vec F S1x128 .f32) (xo4 : Vec F S1x1 .f32) :
    out0_B_3 c i a1 h1 a2 h2 a3 h3 a4 h4 a5 h5 hc x0 x1 x2 xo3 xo4 = k0_pay1 (tileCounts x0 x1 x2) xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero (S := S1x128) hz]
  unfold tileCounts lanes
  simp only [View.readAt_eq_ld, h1.read_unread, h2.read_unread, h3.read_unread, h4.read_unread, View.ld_unit_zero (S := S8192x80) hz,
    View.ld_unit_zero (S := S1x128) hz, shapeCast_self]

/-- After a later point the total block holds what it held plus the tile's total. -/
theorem out_B_4 (c : Dev nD) (i : grid0.Coords) (a1 : Memref sig .tc .vmem S8192x80 .f32) (h1 : a1.IsWhole)
    (a2 : Memref sig .tc .vmem S8192x80 .f32) (h2 : a2.IsWhole) (a3 : Memref sig .tc .vmem S8192x80 .f32) (h3 : a3.IsWhole)
    (a4 : Memref sig .tc .vmem S1x128 .f32) (h4 : a4.IsWhole) (a5 : Memref sig .tc .vmem S1x1 .f32) (h5 : a5.IsWhole)
    (hc : ¬cond0_0 i) (x0 x1 x2 : Vec F S8192x80 .f32) (xo3 : Vec F S1x128 .f32) (xo4 : Vec F S1x1 .f32) :
    out0_B_4 c i a1 h1 a2 h2 a3 h3 a4 h4 a5 h5 hc x0 x1 x2 xo3 xo4 = k0_pay2 (tileRows x2) xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero (S := S1x1) hz]
  unfold tileRows
  simp only [View.readAt_eq_ld, h1.read_unread, h2.read_unread, h3.read_unread, h5.read_unread, View.ld_unit_zero (S := S8192x80) hz,
    View.ld_unit_zero (S := S1x1) hz, shapeCast_self]

end Pieces

/-! ## A tile's contribution, read at a lane -/

section Tile
variable {F : FTy → Type} [FloatOps F]

/-- The sum of a tile's 8192 × 80 entries, as the 1 × 1 block the body forms: lanes first, then rows. -/
def total (m : FVec F S8192x80 .f32) : FVec F S1x1 .f32 :=
  shapeCast S1x1 (multiReduction .add [0] S1
    (shapeCast S8192x1 (multiReduction .add [1] S8192 m 0x00000000#32 reduces_S8192x80_S8192 (.inl rfl) rfl) shapeCasts_S8192_S8192x1)
    0x00000000#32 reduces_S8192x1_S1 (.inl rfl) rfl) shapeCasts_S1_S1x1

/-- Bin `k`'s term of the chain: (lane = `k`) · (the tile's sum of (bin word = `k`) · validity). -/
def binTerm (v12 : FVec F S8192x80 .f32) (v20 : IVec S8192x80 32) (k : BitVec 32) : FVec F S1x128 .f32 :=
  mulf (sitofp .f32 (extui 32 (cmpi .eq lanes (broadcast S1x128 k)) natLt_1_32))
    (broadcastTo S1x128 (total (mulf (sitofp .f32 (extui 32 (cmpi .eq v20 (broadcast S8192x80 k)) natLt_1_32)) v12))
      broadcasts_S1x1_S1x128)

/-- The contribution is the zero block plus the ten bins' terms, in order. -/
theorem tileCounts_eq (x t l : Vec F S8192x80 .f32) :
    tileCounts x t l =
      addf (addf (addf (addf (addf (addf (addf (addf (addf (addf (broadcast S1x128 (Scalar.ofBits .f32 0x00000000#32))
        (binTerm (k0_pay5 l) (k0_pay6 x t) 0#32)) (binTerm (k0_pay5 l) (k0_pay6 x t) 1#32))
        (binTerm (k0_pay5 l) (k0_pay6 x t) 2#32)) (binTerm (k0_pay5 l) (k0_pay6 x t) 3#32))
        (binTerm (k0_pay5 l) (k0_pay6 x t) 4#32)) (binTerm (k0_pay5 l) (k0_pay6 x t) 5#32))
        (binTerm (k0_pay5 l) (k0_pay6 x t) 6#32)) (binTerm (k0_pay5 l) (k0_pay6 x t) 7#32))
        (binTerm (k0_pay5 l) (k0_pay6 x t) 8#32)) (binTerm (k0_pay5 l) (k0_pay6 x t) 9#32) := rfl

/-- The total block adds the tile's total to what it held. -/
theorem pay2_eq (l : Vec F S8192x80 .f32) (xo : Vec F S1x1 .f32) :
    k0_pay2 (tileRows l) xo = addf xo (shapeCast S1x1 (multiReduction .add [0] S1
      (shapeCast S8192x1 (multiReduction .add [1] S8192 (k0_pay5 l) 0x00000000#32 reduces_S8192x80_S8192 (.inl rfl) rfl) shapeCasts_S8192_S8192x1)
      0x00000000#32 reduces_S8192x1_S1 (.inl rfl) rfl) shapeCasts_S1_S1x1) := by
  unfold k0_pay2 tileRows k0_pay14
  simp only [shapeCast_self]

theorem pay1_eq (u : FVec F S1x128 .f32) (xo : Vec F S1x128 .f32) : k0_pay1 u xo = addf xo u := by
  unfold k0_pay1
  simp only [shapeCast_self]

end Tile

section AtIdeal
open Idealize.ShloMosaic.ValueIdx

/-- Over the extended reals the 1 × 1 block of a tile's sum holds the double sum over rows and lanes. -/
theorem total_apply (m : FVec Ideal S8192x80 .f32) (j : S1x1.Idx) :
    total m j = ∑ r : Fin 8192, ∑ q : Fin 80, m (ix2 r q) := by
  unfold total
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  refine (Ideal.multiReduction_add_single _ _ reduces_S8192x1_S1 _ _ _).trans ?_
  show ∑ r : Fin 8192, _ = _
  refine Finset.sum_congr rfl fun r _ => ?_
  have hl : reduces_S8192x1_S1.lift (ix1 (0 : Fin 1)) r = ix2 r (0 : Fin 1) := by
    funext a; match a with | ⟨0, _⟩ => rfl | ⟨1, _⟩ => rfl
  refine (congrArg _ hl).trans ?_
  refine (shapeCast_apply _ shapeCasts_S8192_S8192x1 (ix2 r (0 : Fin 1)) (ix1 r) ?_).trans ?_
  · rw [Shape.rowMajor_val_one, Shape.rowMajor_val_two]
    show r.val = r.val * 1 + 0
    omega
  refine (Ideal.multiReduction_add_single _ _ reduces_S8192x80_S8192 _ _ _).trans ?_
  show ∑ q : Fin 80, _ = _
  refine Finset.sum_congr rfl fun q _ => ?_
  have hl' : reduces_S8192x80_S8192.lift (ix1 r) q = ix2 r q := by
    funext a; match a with | ⟨0, _⟩ => rfl | ⟨1, _⟩ => rfl
  exact congrArg m hl'

/-- The validity block reads, entry by entry, the validity indicator of the label weight. -/
theorem pay5_apply (l : Vec Ideal S8192x80 .f32) (i : S8192x80.Idx) : k0_pay5 l i = Ghmc.vld (l i) := rfl

/-- The block of bin words reads, entry by entry, the bin of the entry. -/
theorem pay6_apply (x t : Vec Ideal S8192x80 .f32) (i : S8192x80.Idx) : k0_pay6 x t i = Ghmc.bin (x i) (t i) := rfl

/-- Bin `k`'s term at lane `j`: the indicator that the lane is `k`, times the tile's sum. -/
theorem binTerm_apply (v12 : FVec Ideal S8192x80 .f32) (v20 : IVec S8192x80 32) (k : BitVec 32) (j : Fin 128) :
    binTerm v12 v20 k (ix2 (0 : Fin 1) j)
      = Ghmc.hit (BitVec.ofNat 32 j.val) k * ∑ r : Fin 8192, ∑ q : Fin 80, Ghmc.hit (v20 (ix2 r q)) k * v12 (ix2 r q) := by
  unfold binTerm
  show FloatOps.sitofp (F := Ideal) .f32 (BitVec.setWidth 32 (IntOp.cmpi .eq (lanes (ix2 (0 : Fin 1) j)) k)) * _ = _
  have hlane : lanes (ix2 (0 : Fin 1) j) = BitVec.ofNat 32 j.val :=
    iota_single_apply .tc S1x128 32 1 iota_S1x128_d1_w32 (ix2 (0 : Fin 1) j)
  rw [hlane]
  refine congrArg (Ghmc.hit (BitVec.ofNat 32 j.val) k * ·) ?_
  refine (broadcastTo_apply _ broadcasts_S1x1_S1x128 (ix2 (0 : Fin 1) j) (ix2 (0 : Fin 1) (0 : Fin 1)) ?_).trans ?_
  · intro a; match a with | ⟨0, _⟩ => rfl | ⟨1, _⟩ => rfl
  exact total_apply _ _

end AtIdeal

section Chain
open Idealize.ShloMosaic.ValueIdx

/-- A sum of eleven blocks, taken in order, reads at an index as the sum of the eleven entries. -/
theorem chain_apply (z a0 a1 a2 a3 a4 a5 a6 a7 a8 a9 : FVec Ideal S1x128 .f32) (j : S1x128.Idx) :
    addf (addf (addf (addf (addf (addf (addf (addf (addf (addf z a0) a1) a2) a3) a4) a5) a6) a7) a8) a9 j
      = z j + a0 j + a1 j + a2 j + a3 j + a4 j + a5 j + a6 j + a7 j + a8 j + a9 j := rfl

/-- The chain through the ten bins, from zero, is the one-hot sum over the ten bins. -/
theorem chain_eq_pick (k : BitVec 32) (w : Fin 10 → Ghmc.R) :
    ((((((((((0 : Ghmc.R) + Ghmc.hit k 0#32 * w 0) + Ghmc.hit k 1#32 * w 1) + Ghmc.hit k 2#32 * w 2) + Ghmc.hit k 3#32 * w 3)
      + Ghmc.hit k 4#32 * w 4) + Ghmc.hit k 5#32 * w 5) + Ghmc.hit k 6#32 * w 6) + Ghmc.hit k 7#32 * w 7)
      + Ghmc.hit k 8#32 * w 8) + Ghmc.hit k 9#32 * w 9 = Ghmc.pick k w := by
  unfold Ghmc.pick
  simp only [Fin.sum_univ_castSucc, Fin.sum_univ_zero]
  rfl

/-- The same, for a table given by a function of the bin's word. -/
theorem chain_eq_pick' (k : BitVec 32) (s : BitVec 32 → Ghmc.R) :
    ((((((((((0 : Ghmc.R) + Ghmc.hit k 0#32 * s 0#32) + Ghmc.hit k 1#32 * s 1#32) + Ghmc.hit k 2#32 * s 2#32) + Ghmc.hit k 3#32 * s 3#32)
      + Ghmc.hit k 4#32 * s 4#32) + Ghmc.hit k 5#32 * s 5#32) + Ghmc.hit k 6#32 * s 6#32) + Ghmc.hit k 7#32 * s 7#32)
      + Ghmc.hit k 8#32 * s 8#32) + Ghmc.hit k 9#32 * s 9#32 = Ghmc.pick k (fun b => s (Ghmc.binw b)) :=
  chain_eq_pick k (fun b => s (Ghmc.binw b))

/-- The sum over a tile of (bin word = `k`) · weight. -/
def binSum (v12 : FVec Ideal S8192x80 .f32) (v20 : IVec S8192x80 32) (k : BitVec 32) : Ghmc.R :=
  ∑ r : Fin 8192, ∑ q : Fin 80, Ghmc.hit (v20 (ix2 r q)) k * v12 (ix2 r q)

theorem binTerm_apply' (v12 : FVec Ideal S8192x80 .f32) (v20 : IVec S8192x80 32) (k : BitVec 32) (j : Fin 128) :
    binTerm v12 v20 k (ix2 (0 : Fin 1) j) = Ghmc.hit (BitVec.ofNat 32 j.val) k * binSum v12 v20 k :=
  binTerm_apply v12 v20 k j

/-- A tile's number of valid entries of bin `b`, from its three blocks. -/
def tileBin (x t l : Vec Ideal S8192x80 .f32) (b : Fin 10) : Ghmc.R :=
  ∑ r : Fin 8192, ∑ q : Fin 80, Ghmc.hit (Ghmc.bin (x (ix2 r q)) (t (ix2 r q))) (Ghmc.binw b) * Ghmc.vld (l (ix2 r q))

theorem binSum_eq (x t l : Vec Ideal S8192x80 .f32) (b : Fin 10) :
    binSum (k0_pay5 l) (k0_pay6 x t) (Ghmc.binw b) = tileBin x t l b := by
  unfold binSum tileBin
  refine Finset.sum_congr rfl fun r _ => Finset.sum_congr rfl fun q _ => ?_
  rw [pay5_apply, pay6_apply]

/-- A tile's number of valid entries. -/
def tileTot (l : Vec Ideal S8192x80 .f32) : Ghmc.R := ∑ r : Fin 8192, ∑ q : Fin 80, Ghmc.vld (l (ix2 r q))

/-- Lane `b` < 10 of a tile's contribution is the tile's number of valid entries of bin `b`: of the ten terms only
    bin `b`'s indicator is 1 on that lane. -/
theorem tileCounts_apply (x t l : Vec Ideal S8192x80 .f32) (b : Fin 10) (hb : b.val < 128) :
    tileCounts x t l (ix2 (0 : Fin 1) (⟨b.val, hb⟩ : Fin 128)) = tileBin x t l b := by
  have hk : (BitVec.ofNat 32 b.val).toNat < 10 := by
    rw [BitVec.toNat_ofNat]; have := b.isLt; omega
  have hbb : (⟨(BitVec.ofNat 32 b.val).toNat, hk⟩ : Fin 10) = b := by
    apply Fin.ext; show (BitVec.ofNat 32 b.val).toNat = b.val
    rw [BitVec.toNat_ofNat]; have := b.isLt; omega
  rw [tileCounts_eq]
  refine (chain_apply _ _ _ _ _ _ _ _ _ _ _ _).trans ?_
  rw [binTerm_apply', binTerm_apply', binTerm_apply', binTerm_apply', binTerm_apply', binTerm_apply', binTerm_apply',
    binTerm_apply', binTerm_apply', binTerm_apply']
  rw [show broadcast S1x128 (Scalar.ofBits (F := Ideal) .f32 0x00000000#32) (ix2 (0 : Fin 1) (⟨b.val, hb⟩ : Fin 128)) = (0 : Ghmc.R)
    from Ideal.ofBits_zero_f32]
  refine (chain_eq_pick' (BitVec.ofNat 32 b.val) (binSum (k0_pay5 l) (k0_pay6 x t))).trans ?_
  rw [Ghmc.pick_eq _ hk, hbb]
  exact binSum_eq x t l b

/-- The 1 × 1 block of a tile's total, over the extended reals. -/
theorem tileTot_apply (l : Vec Ideal S8192x80 .f32) (xo : Vec Ideal S1x1 .f32) (j : S1x1.Idx) :
    k0_pay2 (tileRows l) xo j = xo j + tileTot l := by
  rw [pay2_eq]
  show xo j + total (k0_pay5 l) j = _
  rw [total_apply]
  rfl

theorem pay1_apply (u : FVec Ideal S1x128 .f32) (xo : Vec Ideal S1x128 .f32) (j : S1x128.Idx) : k0_pay1 u xo j = xo j + u j := by
  rw [pay1_eq]; rfl

theorem pay3_apply (j : S1x128.Idx) : (k0_pay3 : FVec Ideal S1x128 .f32) j = 0 := Ideal.ofBits_zero_f32
theorem pay4_apply (j : S1x1.Idx) : (k0_pay4 : FVec Ideal S1x1 .f32) j = 0 := Ideal.ofBits_zero_f32

end Chain

/-! ## The invariant: after point `n` the blocks hold the sums over the tiles 0 … `n` -/

section Invariant
open Idealize.ShloMosaic.ValueIdx

variable (V : (c : Dev nD) → (b : Ref sig .tc) → Buf (Elt Ideal) ((c : Thread nD τ).loc b))

/-- Point `p`'s blocks of the three arrays. -/
abbrev xblk (c : Dev nD) (p : Fin cfg0.N) : Vec Ideal S8192x80 .f32 := iblk0 V c 0 p
abbrev tblk (c : Dev nD) (p : Fin cfg0.N) : Vec Ideal S8192x80 .f32 := iblk0 V c 1 p
abbrev lblk (c : Dev nD) (p : Fin cfg0.N) : Vec Ideal S8192x80 .f32 := iblk0 V c 2 p

/-- Tile `p`'s number of valid entries of bin `b`, and its number of valid entries. -/
def binAt (c : Dev nD) (b : Fin 10) (p : Fin cfg0.N) : Ghmc.R := tileBin (xblk V c p) (tblk V c p) (lblk V c p) b
def totAt (c : Dev nD) (p : Fin cfg0.N) : Ghmc.R := tileTot (lblk V c p)

/-- What the first point leaves: the zero blocks plus its tile's contribution. -/
theorem at_A (c : Dev nD) (t : Fin cfg0.N) (h0 : t.val % 64 = 0) :
    outsAt0 V c t.val t.isLt
      = (k0_pay1 (tileCounts (xblk V c t) (tblk V c t) (lblk V c t)) (k0_pay3 (F := Ideal)), k0_pay2 (tileRows (lblk V c t)) (k0_pay4 (F := Ideal))) := by
  rw [outsAt0_A V c t h0]
  exact congrArg₂ Prod.mk
    (out_A_3 (F := Ideal) c (grid0.coords t) (ms0_0 t) (hs0_0 t) (ms0_1 t) (hs0_1 t) (ms0_2 t) (hs0_2 t) (ms0_3 t) (hs0_3 t) (ms0_4 t) (hs0_4 t)
      ((hcond0_0 t).mpr h0) (xblk V c t) (tblk V c t) (lblk V c t))
    (out_A_4 (F := Ideal) c (grid0.coords t) (ms0_0 t) (hs0_0 t) (ms0_1 t) (hs0_1 t) (ms0_2 t) (hs0_2 t) (ms0_3 t) (hs0_3 t) (ms0_4 t) (hs0_4 t)
      ((hcond0_0 t).mpr h0) (xblk V c t) (tblk V c t) (lblk V c t))

/-- What a later point leaves: what the point before left plus its tile's contribution. -/
theorem at_B (c : Dev nD) (t : Fin cfg0.N) (h0 : ¬t.val % 64 = 0) :
    outsAt0 V c t.val t.isLt
      = (k0_pay1 (tileCounts (xblk V c t) (tblk V c t) (lblk V c t)) (outsAt0 V c (t.val - 1) (Nat.lt_of_le_of_lt (Nat.sub_le _ _) t.isLt)).1,
         k0_pay2 (tileRows (lblk V c t)) (outsAt0 V c (t.val - 1) (Nat.lt_of_le_of_lt (Nat.sub_le _ _) t.isLt)).2) := by
  rw [outsAt0_B V c t h0]
  exact congrArg₂ Prod.mk
    (out_B_3 (F := Ideal) c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (xblk V c t) (tblk V c t) (lblk V c t)
      (outsAt0 V c (t.val - 1) (Nat.lt_of_le_of_lt (Nat.sub_le _ _) t.isLt)).1 (outsAt0 V c (t.val - 1) (Nat.lt_of_le_of_lt (Nat.sub_le _ _) t.isLt)).2)
    (out_B_4 (F := Ideal) c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (xblk V c t) (tblk V c t) (lblk V c t)
      (outsAt0 V c (t.val - 1) (Nat.lt_of_le_of_lt (Nat.sub_le _ _) t.isLt)).1 (outsAt0 V c (t.val - 1) (Nat.lt_of_le_of_lt (Nat.sub_le _ _) t.isLt)).2)

/-- After point `n`: lane `b` < 10 of the counts block holds the tiles' numbers of valid entries of bin `b`, summed over
    the tiles 0 … `n`, and the total block the tiles' numbers of valid entries, summed likewise. -/
theorem inv (c : Dev nD) : ∀ (n : ℕ) (h : n < cfg0.N),
    (∀ (b : Fin 10) (hb : b.val < 128), ((outsAt0 V c n h).1 : Vec Ideal S1x128 .f32) (ix2 (0 : Fin 1) (⟨b.val, hb⟩ : Fin 128))
        = ∑ p : Fin (n + 1), binAt V c b ⟨p.val, Nat.lt_of_lt_of_le p.isLt h⟩)
    ∧ ((outsAt0 V c n h).2 : Vec Ideal S1x1 .f32) (ix2 (0 : Fin 1) (0 : Fin 1))
        = ∑ p : Fin (n + 1), totAt V c ⟨p.val, Nat.lt_of_lt_of_le p.isLt h⟩
  | 0, h => by
    have e := at_A V c ⟨0, h⟩ rfl
    constructor
    · intro b hb
      rw [show outsAt0 V c 0 h = _ from e]
      dsimp only
      rw [pay1_apply, pay3_apply, tileCounts_apply, zero_add, Fin.sum_univ_one]
      rfl
    · rw [show outsAt0 V c 0 h = _ from e]
      dsimp only
      rw [tileTot_apply, pay4_apply, zero_add, Fin.sum_univ_one]
      rfl
  | n + 1, h => by
    have hN : cfg0.N = 64 := N_0
    have hB : ¬(⟨n + 1, h⟩ : Fin cfg0.N).val % 64 = 0 := by dsimp only; omega
    have e := at_B V c ⟨n + 1, h⟩ hB
    obtain ⟨ih3, ih4⟩ := inv c n (Nat.lt_of_succ_lt h)
    constructor
    · intro b hb
      rw [show outsAt0 V c (n + 1) h = _ from e]
      dsimp only
      rw [pay1_apply, tileCounts_apply, Fin.sum_univ_castSucc]
      exact congrArg₂ (· + ·) (ih3 b hb) rfl
    · rw [show outsAt0 V c (n + 1) h = _ from e]
      dsimp only
      rw [tileTot_apply, Fin.sum_univ_castSucc]
      exact congrArg₂ (· + ·) ih4 rfl

end Invariant

/-! ## The two arrays after the region -/

section Final
open Idealize.ShloMosaic.ValueIdx

/-- The tiles' numbers of valid entries of bin `b`, summed over the 64 tiles, are the whole arrays' number. -/
theorem cnt_tiles (x t l : Ghmc.Data.Idx → Ghmc.R) (b : Fin 10) :
    ∑ p : Fin 64, ∑ r : Fin 8192, ∑ q : Fin 80,
      Ghmc.hit (Ghmc.bin
        (x (ix2 (⟨8192 * p.val + r.val, by have := p.isLt; have := r.isLt; omega⟩ : Fin 524288) q))
        (t (ix2 (⟨8192 * p.val + r.val, by have := p.isLt; have := r.isLt; omega⟩ : Fin 524288) q))) (Ghmc.binw b)
        * Ghmc.vld (l (ix2 (⟨8192 * p.val + r.val, by have := p.isLt; have := r.isLt; omega⟩ : Fin 524288) q))
      = Ghmc.cnt x t l b :=
  Ghmc.sum_tiles (fun i => Ghmc.hit (Ghmc.bin (x i) (t i)) (Ghmc.binw b) * Ghmc.vld (l i))

/-- The tiles' numbers of valid entries, summed over the 64 tiles, are the whole array's number. -/
theorem tot_tiles (l : Ghmc.Data.Idx → Ghmc.R) :
    ∑ p : Fin 64, ∑ r : Fin 8192, ∑ q : Fin 80,
      Ghmc.vld (l (ix2 (⟨8192 * p.val + r.val, by have := p.isLt; have := r.isLt; omega⟩ : Fin 524288) q))
      = Ghmc.tot l :=
  Ghmc.sum_tiles (fun i => Ghmc.vld (l i))

end Final

variable (V : (c : Dev nD) → (b : Ref sig .tc) → Buf (Elt Ideal) ((c : Thread nD τ).loc b))

/-- After the region, lane `b` < 10 of the counts array holds the number of valid entries of bin `b`. -/
theorem counts_final (c : Dev nD) (b : Fin 10) :
    ((dat0 (F := Ideal) V c).arrAt 3 cfg0.N : S1x128.Idx → Ideal .f32) (ValueIdx.ix2 (0 : Fin 1) (⟨b.val, by have := b.isLt; omega⟩ : Fin 128))
      = Ghmc.cnt (V c main_arg0) (V c main_arg1) (V c main_arg2) b := by
  have hb : b.val < 128 := by have := b.isLt; omega
  refine (congrFun (Finals.final0_3 V c) _).trans ?_
  refine ((inv V c 63 Finals.h63_0).1 b hb).trans ?_
  refine Eq.trans ?_ (cnt_tiles (V c main_arg0) (V c main_arg1) (V c main_arg2) b)
  show ∑ p : Fin 64, _ = ∑ p : Fin 64, _
  refine Finset.sum_congr rfl fun p _ => ?_
  show tileBin (xblk V c ⟨p.val, _⟩) (tblk V c ⟨p.val, _⟩) (lblk V c ⟨p.val, _⟩) b = _
  unfold tileBin
  refine Finset.sum_congr rfl fun r _ => Finset.sum_congr rfl fun q _ => ?_
  have h : 8192 * p.val + r.val < 524288 := by have := p.isLt; have := r.isLt; omega
  exact congrArg₂ (· * ·)
    (congrArg₂ (fun u v => Ghmc.hit (Ghmc.bin u v) (Ghmc.binw b))
      (Blocks.iblk0_0_apply V c ⟨p.val, Nat.lt_of_lt_of_le p.isLt Finals.h63_0⟩ r q h)
      (Blocks.iblk0_1_apply V c ⟨p.val, Nat.lt_of_lt_of_le p.isLt Finals.h63_0⟩ r q h))
    (congrArg Ghmc.vld (Blocks.iblk0_2_apply V c ⟨p.val, Nat.lt_of_lt_of_le p.isLt Finals.h63_0⟩ r q h))

/-- After the region, the 1 × 1 array holds the number of valid entries. -/
theorem tot_final (c : Dev nD) :
    ((dat0 (F := Ideal) V c).arrAt 4 cfg0.N : S1x1.Idx → Ideal .f32) (ValueIdx.ix2 (0 : Fin 1) (0 : Fin 1))
      = Ghmc.tot (V c main_arg2) := by
  refine (congrFun (Finals.final0_4 V c) _).trans ?_
  refine ((inv V c 63 Finals.h63_0).2).trans ?_
  refine Eq.trans ?_ (tot_tiles (V c main_arg2))
  show ∑ p : Fin 64, _ = ∑ p : Fin 64, _
  refine Finset.sum_congr rfl fun p _ => ?_
  show tileTot (lblk V c ⟨p.val, _⟩) = _
  unfold tileTot
  refine Finset.sum_congr rfl fun r _ => Finset.sum_congr rfl fun q _ => ?_
  have h : 8192 * p.val + r.val < 524288 := by have := p.isLt; have := r.isLt; omega
  exact congrArg Ghmc.vld (Blocks.iblk0_2_apply V c ⟨p.val, Nat.lt_of_lt_of_le p.isLt Finals.h63_0⟩ r q h)

end Cert.KernelIdeal.Hist

end
-- ==== Proof.Bce.lean ====
/-
  The second region's value. Its grid has 64 points; point `p` reads rows 8192·p … 8192·p + 8191 of the three
  input arrays and the whole 1 × 128 weight table. The output's block never moves: point 0 resets it, every point adds
  its tile's weighted cross-entropy, and the write-back after point 63 leaves the sum over all entries of
  (the table's entry for the entry's bin, as the one-hot sum) · validity · cross-entropy.

  The steps. For any float instance, what a point leaves in the block: the first point zero plus its tile's sum, a
  later point what it found plus its tile's sum (the covering store's payload, read back through the whole staging
  buffers and the ten one-lane windows of the table). At the ideal instance the tile's sum is the double sum over rows
  and lanes of the entries' terms: each lane sum and the row sum are finite sums of extended reals, the keep-dimension
  casts move no entry, a broadcast 1 × 1 vector reads its one entry, and the ordered chain zero + h₀·w₀ + … + h₉·w₉ is the
  one-hot sum over the ten bins. By induction on the point the block holds the sum of the tiles' sums so far; after the
  last point that is the result array, and the tiles' rows are the arrays' rows, 64 tiles of 8192 rows of 80 lanes.
-/
import proofs.«169303_j1829656068729_1_alg».proof.Proof.Gen.KernelIdeal.Frame
import proofs.«169303_j1829656068729_1_alg».proof.Proof.Algebra
import proofs.«169303_j1829656068729_1_alg».proof.Proof.Blocks
import proofs.«169303_j1829656068729_1_alg».proof.Proof.Finals
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Cert.KernelIdeal Cert.KernelIdeal.Gen

namespace Cert.KernelIdeal.Bce

open Idealize.ShloMosaic.ValueIdx

/-! ## What one point leaves in the result block, for any float instance -/

section Pieces
variable {F : FTy → Type} [FloatOps F]

theorem hz : (![0, 0] : Fin 2 → Nat) = fun _ => 0 := funext fun a => by fin_cases a <;> rfl

/-- Lane `b` of a 1 × 128 block, as the 1 × 1 vector the body broadcasts over the tile. -/
def lane (w : Vec F S1x128 .f32) (b : Fin 10) : Vec F S1x1 .f32 :=
  fun _ => w (ix2 (0 : Fin 1) (⟨b.val, by have := b.isLt; omega⟩ : Fin 128))

/-- A load of the 1 × 1 window at lane `k` of the block reads that lane. -/
theorem ld_lane (w : Vec F S1x128 .f32) (k : Nat) (hk : k < 10)
    (inb : ∀ a, (![0, k] : Fin 2 → Nat) a + S1x1.size a ≤ S1x128.size a) :
    View.ld w (Rect.unit (s := S1x128) ![0, k] S1x1.size inb) = lane w ⟨k, hk⟩ := by
  funext j
  show w ((Rect.unit (s := S1x128) ![0, k] S1x1.size inb).idx j) = w (ix2 (0 : Fin 1) (⟨k, by omega⟩ : Fin 128))
  congr 1
  funext a
  apply Fin.ext
  have h0 : (j 0).val < 1 := (j 0).isLt
  have h1 : (j 1).val < 1 := (j 1).isLt
  match a with
  | ⟨0, _⟩ => show 0 + 1 * (j 0).val = 0; omega
  | ⟨1, _⟩ => show k + 1 * (j 1).val = k; omega

/-- The body's arithmetic on one tile: from the three input blocks and the ten table entries, the 1 × 1 sum it adds
    to the result block. -/
def tile (x0 x1 x2 : Vec F S8192x80 .f32) (w : Fin 10 → Vec F S1x1 .f32) : FVec F S1x1 .f32 :=
  k1_pay9 x0 x1 (k1_pay3 x2) (k1_pay4 x0 x1)
    (k1_pay7 (k1_pay4 x0 x1) (k1_pay5 x0 x1 (w 0)) (k1_pay6 x0 x1 (w 1)) (w 2) (w 3) (w 4) (w 5))
    (k1_pay8 (k1_pay4 x0 x1) (w 6)) (w 7) (w 8) (w 9)

/-- The zero block the reset stores. -/
abbrev zero11 : Vec F S1x1 .f32 := broadcast S1x1 (Scalar.ofBits .f32 0x00000000#32)

/-- A point that does not reset: the block, holding `xo`, is left at `xo` plus the tile's sum — the one covering
    store's payload, whose loads read the whole input buffers, the ten lanes of the table and the block itself. -/
theorem out_B (c : Dev nD) (i : grid1.Coords) (a1 : Memref sig .tc .vmem S8192x80 .f32) (h1 : a1.IsWhole)
    (a2 : Memref sig .tc .vmem S8192x80 .f32) (h2 : a2.IsWhole) (a3 : Memref sig .tc .vmem S8192x80 .f32) (h3 : a3.IsWhole)
    (a4 : Memref sig .tc .vmem S1x128 .f32) (h4 : a4.IsWhole) (a5 : Memref sig .tc .vmem S1x1 .f32) (h5 : a5.IsWhole)
    (hc : ¬cond1_0 i) (x0 x1 x2 : Vec F S8192x80 .f32) (x3 : Vec F S1x128 .f32) (xo : Vec F S1x1 .f32) :
    out1_B_4 c i a1 h1 a2 h2 a3 h3 a4 h4 a5 h5 hc x0 x1 x2 x3 xo = addf xo (tile x0 x1 x2 (lane x3)) := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  unfold k1_pay1 tile
  simp only [View.readAt_eq_ld, h1.read_unread, h2.read_unread, h3.read_unread, h4.read_unread, h5.read_unread,
    View.ld_unit_zero (S := S8192x80) hz, View.ld_unit_zero (S := S1x1) hz, shapeCast_self,
    ld_lane _ 0 (by omega), ld_lane _ 1 (by omega), ld_lane _ 2 (by omega), ld_lane _ 3 (by omega), ld_lane _ 4 (by omega),
    ld_lane _ 5 (by omega), ld_lane _ 6 (by omega), ld_lane _ 7 (by omega), ld_lane _ 8 (by omega), ld_lane _ 9 (by omega)]
  rfl

/-- The first point: the block is reset to zero, read back, and left at zero plus the tile's sum. -/
theorem out_A (c : Dev nD) (i : grid1.Coords) (a1 : Memref sig .tc .vmem S8192x80 .f32) (h1 : a1.IsWhole)
    (a2 : Memref sig .tc .vmem S8192x80 .f32) (h2 : a2.IsWhole) (a3 : Memref sig .tc .vmem S8192x80 .f32) (h3 : a3.IsWhole)
    (a4 : Memref sig .tc .vmem S1x128 .f32) (h4 : a4.IsWhole) (a5 : Memref sig .tc .vmem S1x1 .f32) (h5 : a5.IsWhole)
    (hc : cond1_0 i) (x0 x1 x2 : Vec F S8192x80 .f32) (x3 : Vec F S1x128 .f32) :
    out1_A_4 c i a1 h1 a2 h2 a3 h3 a4 h4 a5 h5 hc x0 x1 x2 x3 = addf zero11 (tile x0 x1 x2 (lane x3)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz]
  unfold k1_pay1 k1_pay2 tile
  simp only [View.readAt_eq_ld, h1.read_unread, h2.read_unread, h3.read_unread, h4.read_unread,
    View.readCov_unit_zero (S := S1x1) _ hz,
    View.ld_unit_zero (S := S8192x80) hz, View.ld_unit_zero (S := S1x1) hz, shapeCast_self,
    ld_lane _ 0 (by omega), ld_lane _ 1 (by omega), ld_lane _ 2 (by omega), ld_lane _ 3 (by omega), ld_lane _ 4 (by omega),
    ld_lane _ 5 (by omega), ld_lane _ 6 (by omega), ld_lane _ 7 (by omega), ld_lane _ 8 (by omega), ld_lane _ 9 (by omega)]
  rfl

/-- A 1 × 1 vector broadcast to the tile reads its one entry everywhere. -/
theorem bc_apply {α : Type} (w : S1x1.Idx → α) (i : S8192x80.Idx) :
    broadcastTo S8192x80 (shapeCast S1x1 w shapeCasts_S1x1_S1x1) broadcasts_S1x1_S8192x80 i = w (ix2 (0 : Fin 1) (0 : Fin 1)) := by
  rw [shapeCast_self]
  exact broadcastTo_apply w broadcasts_S1x1_S8192x80 i (ix2 (0 : Fin 1) (0 : Fin 1)) (fun a => match a with | ⟨0, _⟩ => rfl | ⟨1, _⟩ => rfl)

end Pieces

/-! ## One tile at the ideal instance -/

/-- The one index of a 1 × 1 block. -/
abbrev o11 : S1x1.Idx := ix2 (0 : Fin 1) (0 : Fin 1)

/-- A vector of `a` entries cast to `a × 1` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The lane sum's inserted index: row `r`, lane `q`. -/
theorem lift_lane (r : Fin 8192) (q : Fin 80) : reduces_S8192x80_S8192.lift (ix1 r) q = ix2 r q := by
  funext a; apply Fin.ext
  match a with
  | ⟨0, _⟩ => rfl
  | ⟨1, _⟩ => rfl

/-- The row sum's inserted index: row `r` of the one column. -/
theorem lift_row (r : Fin 8192) : reduces_S8192x1_S1.lift (ix1 (0 : Fin 1)) r = ix2 r (0 : Fin 1) := by
  funext a; apply Fin.ext
  match a with
  | ⟨0, _⟩ => rfl
  | ⟨1, _⟩ => rfl

theorem pay3_apply (x2 : Vec Ideal S8192x80 .f32) (i : S8192x80.Idx) : k1_pay3 x2 i = Ghmc.vld (x2 i) := rfl
theorem pay4_apply (x0 x1 : Vec Ideal S8192x80 .f32) (i : S8192x80.Idx) : k1_pay4 x0 x1 i = Ghmc.bin (x0 i) (x1 i) := rfl

theorem pay5_apply (x0 x1 : Vec Ideal S8192x80 .f32) (w : Vec Ideal S1x1 .f32) (i : S8192x80.Idx) :
    k1_pay5 x0 x1 w i = Ghmc.zeroF + Ghmc.hit (Ghmc.bin (x0 i) (x1 i)) 0#32 * w o11 :=
  congrArg (fun z => Ghmc.zeroF + Ghmc.hit (Ghmc.bin (x0 i) (x1 i)) 0#32 * z) (bc_apply w i)

theorem pay6_apply (x0 x1 : Vec Ideal S8192x80 .f32) (w : Vec Ideal S1x1 .f32) (i : S8192x80.Idx) :
    k1_pay6 x0 x1 w i = Ghmc.hit (Ghmc.bin (x0 i) (x1 i)) 1#32 * w o11 :=
  congrArg (fun z => Ghmc.hit (Ghmc.bin (x0 i) (x1 i)) 1#32 * z) (bc_apply w i)

theorem pay7_apply (v20 : IVec S8192x80 32) (v30 v38 : FVec Ideal S8192x80 .f32) (w2 w3 w4 w5 : Vec Ideal S1x1 .f32) (i : S8192x80.Idx) :
    k1_pay7 v20 v30 v38 w2 w3 w4 w5 i
      = ((((v30 i + v38 i) + Ghmc.hit (v20 i) 2#32 * w2 o11) + Ghmc.hit (v20 i) 3#32 * w3 o11) + Ghmc.hit (v20 i) 4#32 * w4 o11)
          + Ghmc.hit (v20 i) 5#32 * w5 o11 := by
  unfold k1_pay7
  simp only [mulf_apply, addf_apply, bc_apply]
  rfl

theorem pay8_apply (v20 : IVec S8192x80 32) (w6 : Vec Ideal S1x1 .f32) (i : S8192x80.Idx) :
    k1_pay8 v20 w6 i = Ghmc.hit (v20 i) 6#32 * w6 o11 :=
  congrArg (fun z => Ghmc.hit (v20 i) 6#32 * z) (bc_apply w6 i)

theorem pay9_apply (x0 x1 : Vec Ideal S8192x80 .f32) (v12 : FVec Ideal S8192x80 .f32) (v20 : IVec S8192x80 32)
    (v75 v83 : FVec Ideal S8192x80 .f32) (w7 w8 w9 : Vec Ideal S1x1 .f32) :
    k1_pay9 x0 x1 v12 v20 v75 v83 w7 w8 w9 o11 = ∑ r : Fin 8192, ∑ q : Fin 80,
      (((((v75 (ix2 r q) + v83 (ix2 r q)) + Ghmc.hit (v20 (ix2 r q)) 7#32 * w7 o11) + Ghmc.hit (v20 (ix2 r q)) 8#32 * w8 o11)
          + Ghmc.hit (v20 (ix2 r q)) 9#32 * w9 o11) * v12 (ix2 r q)) * Ghmc.bce (x0 (ix2 r q)) (x1 (ix2 r q)) := by
  unfold k1_pay9
  refine (shapeCast_a_1a_apply _ _ (0 : Fin 1) (0 : Fin 1)).trans ?_
  refine (Ideal.multiReduction_add_single _ _ _ _ _ _).trans ?_
  refine Finset.sum_congr rfl fun r _ => ?_
  refine (congrArg _ (lift_row r)).trans ?_
  refine (shapeCast_a_a1_apply _ _ r (0 : Fin 1)).trans ?_
  refine (Ideal.multiReduction_add_single _ _ _ _ _ _).trans ?_
  refine Finset.sum_congr rfl fun q _ => ?_
  refine (congrArg _ (lift_lane r q)).trans ?_
  simp only [mulf_apply, addf_apply, bc_apply]
  rfl

/-- The body's ordered chain over the ten bins is the one-hot sum. -/
theorem chain_eq_pick (k : BitVec 32) (w : Fin 10 → Ghmc.R) :
    (((((((((((Ghmc.zeroF + Ghmc.hit k 0#32 * w 0) + Ghmc.hit k 1#32 * w 1) + Ghmc.hit k 2#32 * w 2) + Ghmc.hit k 3#32 * w 3)
      + Ghmc.hit k 4#32 * w 4) + Ghmc.hit k 5#32 * w 5) + Ghmc.hit k 6#32 * w 6) + Ghmc.hit k 7#32 * w 7)
      + Ghmc.hit k 8#32 * w 8) + Ghmc.hit k 9#32 * w 9) : Ghmc.R) = Ghmc.pick k w := by
  unfold Ghmc.pick
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_zero]
  have hz0 : Ghmc.zeroF = (0 : Ghmc.R) := Ideal.ofBits_zero_f32
  rw [hz0]
  rfl

/-- One entry's term of the loss's sum: the table's entry for the entry's bin, times validity, times cross-entropy. -/
def elem (x t l : Ghmc.R) (w : Fin 10 → Ghmc.R) : Ghmc.R :=
  (Ghmc.pick (Ghmc.bin x t) w * Ghmc.vld l) * Ghmc.bce x t

/-- The tile's sum at the ideal instance: over its rows and lanes, each entry's term, the table read at the ten
    1 × 1 vectors' one entry. -/
theorem tile_apply (x0 x1 x2 : Vec Ideal S8192x80 .f32) (w : Fin 10 → Vec Ideal S1x1 .f32) :
    tile x0 x1 x2 w o11 = ∑ r : Fin 8192, ∑ q : Fin 80,
      elem (x0 (ix2 r q)) (x1 (ix2 r q)) (x2 (ix2 r q)) (fun b => w b o11) := by
  unfold tile
  rw [pay9_apply]
  refine Finset.sum_congr rfl fun r _ => Finset.sum_congr rfl fun q _ => ?_
  rw [pay7_apply, pay8_apply, pay5_apply, pay6_apply, pay3_apply, pay4_apply]
  exact congrArg (fun z => (z * Ghmc.vld (x2 (ix2 r q))) * Ghmc.bce (x0 (ix2 r q)) (x1 (ix2 r q)))
    (chain_eq_pick (Ghmc.bin (x0 (ix2 r q)) (x1 (ix2 r q))) (fun b => w b o11))

/-! ## The result block after each point, and the result array -/

variable (V : (c : Dev nD) → (b : Ref sig .tc) → Buf (Elt Ideal) ((c : Thread nD τ).loc b))

/-- The four input blocks of point `t`, at their literal types. -/
abbrev xblk (c : Dev nD) (t : Fin cfg1.N) : Vec Ideal S8192x80 .f32 := iblk1 V c 0 t
abbrev tblk (c : Dev nD) (t : Fin cfg1.N) : Vec Ideal S8192x80 .f32 := iblk1 V c 1 t
abbrev lblk (c : Dev nD) (t : Fin cfg1.N) : Vec Ideal S8192x80 .f32 := iblk1 V c 2 t
abbrev wblk (c : Dev nD) (t : Fin cfg1.N) : Vec Ideal S1x128 .f32 := iblk1 V c 3 t

/-- The sum point `t` adds to the result block. -/
def tsum (c : Dev nD) (t : Fin cfg1.N) : Ghmc.R :=
  tile (xblk V c t) (tblk V c t) (lblk V c t) (lane (wblk V c t)) o11

/-- A later point adds its tile's sum to what the point before left. -/
theorem outs_step (c : Dev nD) (t : Fin cfg1.N) (h0 : ¬t.val % 64 = 0) :
    (outsAt1 V c t.val t.isLt : Vec Ideal S1x1 .f32) o11
      = (outsAt1 V c (t.val - 1) (Nat.lt_of_le_of_lt (Nat.sub_le _ _) t.isLt) : Vec Ideal S1x1 .f32) o11 + tsum V c t := by
  rw [outsAt1_B V c t h0]
  exact congrFun (out_B (F := Ideal) c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (xblk V c t) (tblk V c t) (lblk V c t) (wblk V c t)
    (outsAt1 V c (t.val - 1) (Nat.lt_of_le_of_lt (Nat.sub_le _ _) t.isLt))) o11

/-- The first point leaves its tile's sum. -/
theorem outs_zero (c : Dev nD) (h : 0 < cfg1.N) :
    (outsAt1 V c 0 h : Vec Ideal S1x1 .f32) o11 = tsum V c ⟨0, h⟩ := by
  rw [outsAt1_A V c ⟨0, h⟩ (Nat.zero_mod _)]
  refine (congrFun (out_A (F := Ideal) c (grid1.coords ⟨0, h⟩) (ms1_0 ⟨0, h⟩) (hs1_0 ⟨0, h⟩) (ms1_1 ⟨0, h⟩) (hs1_1 ⟨0, h⟩)
    (ms1_2 ⟨0, h⟩) (hs1_2 ⟨0, h⟩) (ms1_3 ⟨0, h⟩) (hs1_3 ⟨0, h⟩) (ms1_4 ⟨0, h⟩) (hs1_4 ⟨0, h⟩)
    ((hcond1_0 ⟨0, h⟩).mpr (Nat.zero_mod _)) (xblk V c ⟨0, h⟩) (tblk V c ⟨0, h⟩) (lblk V c ⟨0, h⟩) (wblk V c ⟨0, h⟩)) o11).trans ?_
  show Ideal.ofBits .f32 0x00000000#32 + tsum V c ⟨0, h⟩ = tsum V c ⟨0, h⟩
  rw [Ideal.ofBits_zero_f32, zero_add]

/-- After point `n` the block holds the sum of the tiles' sums of points 0 … n. -/
theorem outs_eq (c : Dev nD) : ∀ (n : ℕ) (h : n < cfg1.N),
    (outsAt1 V c n h : Vec Ideal S1x1 .f32) o11
      = ∑ p : Fin (n + 1), tsum V c ⟨p.val, Nat.lt_of_le_of_lt (Nat.le_of_lt_succ p.isLt) h⟩
  | 0, h => by
    rw [outs_zero V c h, Fin.sum_univ_one]
    rfl
  | n + 1, h => by
    have hN : cfg1.N = 64 := N_1
    have hB : ¬(⟨n + 1, h⟩ : Fin cfg1.N).val % 64 = 0 := by dsimp only; omega
    rw [outs_step V c ⟨n + 1, h⟩ hB, Fin.sum_univ_castSucc]
    show (outsAt1 V c n _ : Vec Ideal S1x1 .f32) o11 + _ = _
    rw [outs_eq c n (Nat.lt_of_succ_lt h)]
    rfl

/-- The first ten lanes of the weight table the region found on entry. -/
def table (c : Dev nD) (b : Fin 10) : Ideal .f32 :=
  (V c main_v21 : S1x128.Idx → Ideal .f32) (ValueIdx.ix2 (0 : Fin 1) (⟨b.val, by have := b.isLt; omega⟩ : Fin 128))

/-- A point's tile sum, over the arrays: its rows are rows 8192·p … 8192·p + 8191 of the three input arrays, its table
    the array's. -/
theorem tsum_eq (c : Dev nD) (p : Fin 64) (hp : p.val < cfg1.N) :
    tsum V c ⟨p.val, hp⟩ = ∑ r : Fin 8192, ∑ q : Fin 80,
      elem ((V c main_arg0 : S524288x80.Idx → Ideal .f32) (ix2 (⟨8192 * p.val + r.val, by have := p.isLt; have := r.isLt; omega⟩ : Fin 524288) q))
        ((V c main_arg1 : S524288x80.Idx → Ideal .f32) (ix2 (⟨8192 * p.val + r.val, by have := p.isLt; have := r.isLt; omega⟩ : Fin 524288) q))
        ((V c main_arg2 : S524288x80.Idx → Ideal .f32) (ix2 (⟨8192 * p.val + r.val, by have := p.isLt; have := r.isLt; omega⟩ : Fin 524288) q))
        (table V c) := by
  unfold tsum
  rw [tile_apply]
  refine Finset.sum_congr rfl fun r _ => Finset.sum_congr rfl fun q _ => ?_
  have hr : 8192 * (⟨p.val, hp⟩ : Fin cfg1.N).val + r.val < 524288 := by have := p.isLt; have := r.isLt; dsimp only; omega
  rw [show xblk V c ⟨p.val, hp⟩ (ix2 r q) = _ from Blocks.iblk1_0_apply V c ⟨p.val, hp⟩ r q hr,
    show tblk V c ⟨p.val, hp⟩ (ix2 r q) = _ from Blocks.iblk1_1_apply V c ⟨p.val, hp⟩ r q hr,
    show lblk V c ⟨p.val, hp⟩ (ix2 r q) = _ from Blocks.iblk1_2_apply V c ⟨p.val, hp⟩ r q hr]
  have hw : (fun b : Fin 10 => lane (wblk V c ⟨p.val, hp⟩) b o11) = table V c := funext fun b =>
    Blocks.iblk1_3_apply V c ⟨p.val, hp⟩ (⟨b.val, by have := b.isLt; omega⟩ : Fin 128)
  rw [hw]

/-- After the region, the 1 × 1 result array holds the weighted cross-entropies summed over all entries. -/
theorem s_final (c : Dev nD) :
    ((dat1 (F := Ideal) V c).arrAt 4 cfg1.N : S1x1.Idx → Ideal .f32) (ValueIdx.ix2 (0 : Fin 1) (0 : Fin 1))
      = ∑ i : Ghmc.Data.Idx,
          (Ghmc.pick (Ghmc.bin ((V c main_arg0 : S524288x80.Idx → Ideal .f32) i) ((V c main_arg1 : S524288x80.Idx → Ideal .f32) i)) (table V c)
              * Ghmc.vld ((V c main_arg2 : S524288x80.Idx → Ideal .f32) i))
            * Ghmc.bce ((V c main_arg0 : S524288x80.Idx → Ideal .f32) i) ((V c main_arg1 : S524288x80.Idx → Ideal .f32) i) := by
  rw [show ((dat1 (F := Ideal) V c).arrAt 4 cfg1.N : S1x1.Idx → Ideal .f32) = outsAt1 V c 63 Finals.h63_1 from Finals.final1_4 V c]
  refine (outs_eq V c 63 Finals.h63_1).trans ?_
  refine Eq.trans ?_ (Ghmc.sum_tiles fun i =>
    elem ((V c main_arg0 : S524288x80.Idx → Ideal .f32) i) ((V c main_arg1 : S524288x80.Idx → Ideal .f32) i)
      ((V c main_arg2 : S524288x80.Idx → Ideal .f32) i) (table V c))
  exact Finset.sum_congr rfl fun p _ => tsum_eq V c p _

end Cert.KernelIdeal.Bce

end
-- ==== Proof.Glue.lean ====
/-
  The host operations around the two regions, read as values along the run's fold of buffer contents: the input
  arrays reach both regions as launched; between the regions the counts and the total become the 1 × 128 weight
  table (its first ten lanes the adjusted bin weights, by a scatter of ten values into zeros) and the scalar
  max(total, 1); after the second region the result is its sum over that scalar, times one.
-/
import proofs.«169303_j1829656068729_1_alg».proof.Proof.Gen.KernelIdeal.Frame
import proofs.«169303_j1829656068729_1_alg».proof.Proof.Algebra
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost
import Idealize.ShloMosaic.Lib.ValueLayout
import Idealize.ShloMosaic.Lib.ValueIdxRank1

noncomputable section

open Idealize.ShloMosaic Idealize.ShloMosaic.TcCoe Idealize.SL.Sem
open Idealize.ShloMosaic.Pipeline (Dat)
open Cert.KernelIdeal Cert.KernelIdeal.Gen

namespace Cert.KernelIdeal.Glue

variable (m : (ℓ : Loc nD τ sig) → Buf (Elt Ideal) ℓ) (ρ : Dev nD → PrngReg)

/-- A stretch of host operations leaves alone every buffer none of them writes. -/
local macro "untouched_by" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first region finds the input arrays as launched. -/
theorem V0_arg0 (c : Dev nD) : V0 m ρ c main_arg0 = m ((c : Thread nD τ).loc main_arg0) := rfl
theorem V0_arg1 (c : Dev nD) : V0 m ρ c main_arg1 = m ((c : Thread nD τ).loc main_arg1) := rfl
theorem V0_arg2 (c : Dev nD) : V0 m ρ c main_arg2 = m ((c : Thread nD τ).loc main_arg2) := rfl

/-- Between the regions nothing writes an input array: the three host stretches skip it, and the first region
    leaves an input window's array as it entered. -/
theorem V4_arg0 (c : Dev nD) : V4 m ρ c main_arg0 = m ((c : Thread nD τ).loc main_arg0) :=
  calc W4 m ρ c (Proc.devRef .tc main_arg0)
    _ = W3 m ρ c (Proc.devRef .tc main_arg0) := by untouched_by hostOps1_2
    _ = W2 m ρ c (Proc.devRef .tc main_arg0) := by untouched_by hostOps1_1
    _ = W1 m ρ c (Proc.devRef .tc main_arg0) := by untouched_by hostOps1
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem V4_arg1 (c : Dev nD) : V4 m ρ c main_arg1 = m ((c : Thread nD τ).loc main_arg1) :=
  calc W4 m ρ c (Proc.devRef .tc main_arg1)
    _ = W3 m ρ c (Proc.devRef .tc main_arg1) := by untouched_by hostOps1_2
    _ = W2 m ρ c (Proc.devRef .tc main_arg1) := by untouched_by hostOps1_1
    _ = W1 m ρ c (Proc.devRef .tc main_arg1) := by untouched_by hostOps1
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem V4_arg2 (c : Dev nD) : V4 m ρ c main_arg2 = m ((c : Thread nD τ).loc main_arg2) :=
  calc W4 m ρ c (Proc.devRef .tc main_arg2)
    _ = W3 m ρ c (Proc.devRef .tc main_arg2) := by untouched_by hostOps1_2
    _ = W2 m ρ c (Proc.devRef .tc main_arg2) := by untouched_by hostOps1_1
    _ = W1 m ρ c (Proc.devRef .tc main_arg2) := by untouched_by hostOps1
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-- The ten counts the first region left, lanes 0 … 9 of its 1 × 128 output. -/
def counts (c : Dev nD) (b : Fin 10) : Ideal .f32 :=
  (V1 m ρ c main_v0_0 : S1x128.Idx → Ideal .f32) (ValueIdx.ix2 (0 : Fin 1) (⟨b.val, by have := b.isLt; omega⟩ : Fin 128))

/-- The total the first region left, its 1 × 1 output. -/
def total (c : Dev nD) : Ideal .f32 :=
  (V1 m ρ c main_v0_1 : S1x1.Idx → Ideal .f32) (ValueIdx.ix2 (0 : Fin 1) (0 : Fin 1))

/-! ## The host chain as functions of the counts array and the total array -/

section Chain

open ValueIdx

variable (C : FVec Ideal S1x128 .f32) (T : FVec Ideal S1x1 .f32)

/-- max(total, 1), a scalar. -/
def g2 : FVec Ideal S_ .f32 :=
  maximumf (shapeCast S_ T shapeCasts_S1x1_S_) (constant (F := Ideal) S_ .f32 0x3F800000#32)

/-- The ten counts, as a vector. -/
def g4 : FVec Ideal S10 .f32 :=
  shapeCast S10 (extractStridedSlice S1x10 ![0, 0] C slices_S1x128_S1x10_0_0) shapeCasts_S1x10_S10

/-- Which bins are non-empty. -/
def g6 : IVec S10 1 :=
  cmpf .ogt (g4 C) (broadcastInDim S10 ![] bcast_S_S10 (constant (F := Ideal) S_ .f32 0x00000000#32))

/-- The number of non-empty bins. -/
def g8 : FVec Ideal S_ .f32 :=
  Host.reduceAdd (F := Ideal) (uitofp .f32 (g6 C)) (constant (F := Ideal) S_ .f32 0x00000000#32) reducesTo_S10_S_d0 h_S_

/-- max(total, 1) / max(count, 1), bin by bin. -/
def g12 : FVec Ideal S10 .f32 :=
  Host.divf (F := Ideal) (broadcastInDim S10 ![] bcast_S_S10 (g2 T))
    (maximumf (g4 C) (broadcastInDim S10 ![] bcast_S_S10 (constant (F := Ideal) S_ .f32 0x3F800000#32)))

/-- The quotient on the non-empty bins, the scalar `z` (zero, in the run) on the empty ones. -/
def g13 (v6 : IVec S10 1) (v12 : FVec Ideal S10 .f32) (z : FVec Ideal S_ .f32) : FVec Ideal S10 .f32 :=
  select v6 v12 (broadcastInDim S10 ![] bcast_S_S10 z)

/-- That, over max(number of non-empty bins, 1). -/
def g16 (v13 : FVec Ideal S10 .f32) (v8 : FVec Ideal S_ .f32) : FVec Ideal S10 .f32 :=
  Host.divf (F := Ideal) v13 (broadcastInDim S10 ![] bcast_S_S10 (maximumf v8 (constant (F := Ideal) S_ .f32 0x3F800000#32)))

/-- The ten values written over lanes 0 … 9 of a row of 128 zeros, the window's start the index vector (0, 0). -/
def g21 (v16 : FVec Ideal S10 .f32) : FVec Ideal S1x128 .f32 :=
  Host.scatter scatter_S1x128_S2_S10_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    v16

/-- Lane `b` of the row, as an index of the 1 × 128 array. -/
abbrev lane (b : Fin 10) : S1x128.Idx := ix2 (0 : Fin 1) (⟨b.val, by have := b.isLt; omega⟩ : Fin 128)

/-- A 1 × 1 array read as a scalar is its one entry. -/
theorem cast11_at : shapeCast S_ T shapeCasts_S1x1_S_ ix0 = T (ix2 (0 : Fin 1) (0 : Fin 1)) :=
  shapeCast_apply T shapeCasts_S1x1_S_ ix0 (ix2 (0 : Fin 1) (0 : Fin 1)) (by
    have h1 := (S_.rowMajor ix0).isLt
    have h2 : S_.numel = 1 := by decide
    rw [Shape.rowMajor_val_two]
    show 0 * 1 + 0 = _
    omega)

theorem g2_at : g2 T ix0 = FloatOps.maximumf (T (ix2 (0 : Fin 1) (0 : Fin 1))) Ghmc.oneF := by
  show FloatOps.maximumf (shapeCast S_ T shapeCasts_S1x1_S_ ix0) (constant (F := Ideal) S_ .f32 0x3F800000#32 ix0) = _
  rw [cast11_at]
  rfl

theorem g4_at (b : Fin 10) : g4 C (ix1 b) = C (lane b) := by
  unfold g4
  rw [shapeCast_1a_a_apply]
  exact slice2_axis1_apply 0 C _ (0 : Fin 1) b _ (Nat.zero_add _).symm

theorem g6_at (b : Fin 10) : g6 C (ix1 b) = FloatOps.cmpf (F := Ideal) .ogt (C (lane b)) Ghmc.zeroF := by
  show FloatOps.cmpf .ogt (g4 C (ix1 b))
    (broadcastInDim S10 ![] bcast_S_S10 (constant (F := Ideal) S_ .f32 0x00000000#32) (ix1 b)) = _
  rw [g4_at, broadcastInDim_scalar_apply]
  rfl

theorem g8_at : g8 C ix0
    = ∑ b' : Fin 10, FloatOps.uitofp (F := Ideal) .f32 (FloatOps.cmpf (F := Ideal) .ogt (C (lane b')) Ghmc.zeroF) := by
  show Ideal.hostReduceAdd reducesTo_S10_S_d0 _ _ ix0 = _
  rw [Ideal.hostReduceAdd_total reducesTo_S10_S_d0 (fun b => b.elim0)]
  rw [show constant (F := Ideal) S_ .f32 0x00000000#32 (Shape.Idx.first h_S_) = (0 : EReal) from Ideal.ofBits_zero_f32, zero_add]
  refine (Equiv.sum_comp (idxEquiv1 (n := 10)).symm _).symm.trans ?_
  refine Finset.sum_congr rfl fun k _ => ?_
  show FloatOps.uitofp (F := Ideal) .f32 (g6 C (ix1 k)) = _
  rw [g6_at]

theorem g12_at (b : Fin 10) : g12 C T (ix1 b)
    = FloatOps.hostDivf (FloatOps.maximumf (T (ix2 (0 : Fin 1) (0 : Fin 1))) Ghmc.oneF) (FloatOps.maximumf (C (lane b)) Ghmc.oneF) := by
  show FloatOps.hostDivf (broadcastInDim S10 ![] bcast_S_S10 (g2 T) (ix1 b))
    (FloatOps.maximumf (g4 C (ix1 b)) (broadcastInDim S10 ![] bcast_S_S10 (constant (F := Ideal) S_ .f32 0x3F800000#32) (ix1 b))) = _
  rw [broadcastInDim_scalar_apply, broadcastInDim_scalar_apply, g2_at, g4_at]
  rfl

theorem g13_at (v6 : IVec S10 1) (v12 : FVec Ideal S10 .f32) (z : FVec Ideal S_ .f32) (b : Fin 10) :
    g13 v6 v12 z (ix1 b) = Scalar.select (v6 (ix1 b)) (v12 (ix1 b)) (z ix0) := by
  show Scalar.select (v6 (ix1 b)) (v12 (ix1 b)) (broadcastInDim S10 ![] bcast_S_S10 z (ix1 b)) = _
  rw [broadcastInDim_scalar_apply]

theorem g16_at (v13 : FVec Ideal S10 .f32) (v8 : FVec Ideal S_ .f32) (b : Fin 10) :
    g16 v13 v8 (ix1 b) = FloatOps.hostDivf (v13 (ix1 b)) (FloatOps.maximumf (v8 ix0) Ghmc.oneF) := by
  show FloatOps.hostDivf (v13 (ix1 b))
    (broadcastInDim S10 ![] bcast_S_S10 (maximumf v8 (constant (F := Ideal) S_ .f32 0x3F800000#32)) (ix1 b)) = _
  rw [broadcastInDim_scalar_apply]
  rfl

end Chain

/-! ## The scatter of ten values into a row -/

section Scatter

open ValueIdx

/-- Writing, in turn, the value `v n` at the place `g n` for each `n` of a list: a place no listed `n` names keeps
    what it held, and when `g` is one-to-one and the list has no repeats the place `g b` of a listed `b` ends
    holding `v b`. -/
theorem foldl_write {ι κ α : Type} [DecidableEq κ] (g : ι → κ) (hg : Function.Injective g) (v : ι → α) :
    ∀ (l : List ι) (x : κ → α),
      (∀ i, (∀ n ∈ l, g n ≠ i) → l.foldl (fun r n => fun i' => if i' = g n then v n else r i') x i = x i) ∧
      (l.Nodup → ∀ b ∈ l, l.foldl (fun r n => fun i' => if i' = g n then v n else r i') x (g b) = v b)
  | [], x => ⟨fun _ _ => rfl, fun _ b hb => absurd hb List.not_mem_nil⟩
  | a :: l, x => by
    have ih := foldl_write g hg v l (fun i' => if i' = g a then v a else x i')
    refine ⟨fun i hi => ?_, fun hnd b hb => ?_⟩
    · rw [List.foldl_cons, ih.1 i (fun n hn => hi n (List.mem_cons_of_mem _ hn))]
      exact if_neg (fun e => hi a List.mem_cons_self e.symm)
    · rw [List.foldl_cons]
      rcases List.mem_cons.mp hb with rfl | hb'
      · rw [ih.1 (g b) (fun n hn e => (List.nodup_cons.mp hnd).1 (hg e ▸ hn))]
        exact if_pos rfl
      · exact ih.2 (List.nodup_cons.mp hnd).2 b hb'

/-- The index vector of the scatter is (0, 0). -/
theorem idx_zero :
    (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32)
      = fun _ => 0#32 := by
  decide

/-- With the window's start at (0, 0), update `n` lands at row 0, lane `n`. -/
theorem result_idx :
    ∀ n : Fin S10.numel, scatter_S1x128_S2_S10_0_0_01_0.resultIdx? (S10.rowMajor.symm n) (fun _ => 0#32 : IVec S2 32)
      = some (ix2 (0 : Fin 1) (⟨n.val, by have := n.isLt; have h : S10.numel = 10 := by decide
                                          omega⟩ : Fin 128)) := by
  decide

end Scatter

section G21
open ValueIdx

/-- Lane `b` of the scattered row holds the `b`-th of the ten values. -/
theorem g21_at (v16 : FVec Ideal S10 .f32) (b : Fin 10) : g21 v16 (lane b) = v16 (ix1 b) := by
  have hb : b.val < S10.numel := by
    have h : S10.numel = 10 := by decide
    have := b.isLt
    omega
  unfold g21
  rw [idx_zero]
  unfold Host.scatter
  simp only [result_idx]
  refine ((foldl_write (fun n : Fin S10.numel => ix2 (0 : Fin 1) (⟨n.val, by
      have := n.isLt; have h : S10.numel = 10 := by decide
      omega⟩ : Fin 128)) ?_ (fun n => v16 (S10.rowMajor.symm n)) _ _).2 (List.nodup_finRange _) ⟨b.val, hb⟩ (List.mem_finRange _)).trans ?_
  · intro n n' e
    exact Fin.ext (congrArg (fun i : S1x128.Idx => (i 1).val) e)
  · refine congrArg v16 ?_
    rw [Equiv.symm_apply_eq]
    apply Fin.ext
    rw [Shape.rowMajor_val_one]

end G21

/-! ## The chain along the run -/

section Run

variable (X : Valuation τ sig (Elt Ideal))

theorem run_v2 : (StableHlo.after hostOps1 X (Proc.devRef .tc main_v2) : FVec Ideal S_ .f32)
    = g2 (X (Proc.devRef .tc main_v0_1)) := by
  after_results; rfl

theorem run_v6 : (StableHlo.after hostOps1 X (Proc.devRef .tc main_v6) : IVec S10 1)
    = g6 (X (Proc.devRef .tc main_v0_0)) := by
  after_results; rfl

theorem run_v8 : (StableHlo.after hostOps1 X (Proc.devRef .tc main_v8) : FVec Ideal S_ .f32)
    = g8 (X (Proc.devRef .tc main_v0_0)) := by
  after_results; rfl

theorem run_v12 : (StableHlo.after hostOps1 X (Proc.devRef .tc main_v12) : FVec Ideal S10 .f32)
    = g12 (X (Proc.devRef .tc main_v0_0)) (X (Proc.devRef .tc main_v0_1)) := by
  after_results; rfl

theorem run_cst3 : (StableHlo.after hostOps1 X (Proc.devRef .tc main_cst_3) : FVec Ideal S_ .f32)
    = constant (F := Ideal) S_ .f32 0x00000000#32 := by
  after_results

theorem run_v13 : (StableHlo.after hostOps1_1 X (Proc.devRef .tc main_v13) : FVec Ideal S10 .f32)
    = g13 (X (Proc.devRef .tc main_v6)) (X (Proc.devRef .tc main_v12)) (X (Proc.devRef .tc main_cst_3)) := by
  after_results; rfl

theorem run_v21 : (StableHlo.after hostOps1_2 X (Proc.devRef .tc main_v21) : FVec Ideal S1x128 .f32)
    = g21 (g16 (X (Proc.devRef .tc main_v13)) (X (Proc.devRef .tc main_v8))) := by
  after_results; rfl

theorem run_v25 : (StableHlo.after hostOps2 X (Proc.devRef .tc main_v25) : FVec Ideal S_ .f32)
    = mulf (Host.divf (F := Ideal) (shapeCast S_ (X (Proc.devRef .tc main_v22)) shapeCasts_S1x1_S_) (X (Proc.devRef .tc main_v2)))
        (constant (F := Ideal) S_ .f32 0x3F800000#32) := by
  after_results; rfl

end Run

open ValueIdx in
/-- The scalar the host keeps for the last division: max(total, 1). -/
theorem V4_tot1 (c : Dev nD) :
    (V4 m ρ c main_v2 : S_.Idx → Ideal .f32) ValueIdx.ix0 = FloatOps.maximumf (total m ρ c) Ghmc.oneF := by
  have e : (V4 m ρ c main_v2 : FVec Ideal S_ .f32) = g2 (V1 m ρ c main_v0_1) :=
    ((by untouched_by hostOps1_2 : W4 m ρ c (Proc.devRef .tc main_v2) = W3 m ρ c (Proc.devRef .tc main_v2)).trans
      (by untouched_by hostOps1_1 : W3 m ρ c (Proc.devRef .tc main_v2) = W2 m ρ c (Proc.devRef .tc main_v2))).trans
      (run_v2 (W1 m ρ c))
  exact (congrFun e ix0).trans (g2_at _)

open ValueIdx in
/-- Lane `b` < 10 of the weight table the second region reads: the adjusted weight of bin `b`. -/
theorem V4_table (c : Dev nD) (b : Fin 10) :
    (V4 m ρ c main_v21 : S1x128.Idx → Ideal .f32) (ValueIdx.ix2 (0 : Fin 1) (⟨b.val, by have := b.isLt; omega⟩ : Fin 128))
      = Ghmc.wadjOf (counts m ρ c) (total m ρ c) b := by
  have e8 : (W3 m ρ c (Proc.devRef .tc main_v8) : FVec Ideal S_ .f32) = g8 (V1 m ρ c main_v0_0) :=
    (by untouched_by hostOps1_1 : W3 m ρ c (Proc.devRef .tc main_v8) = W2 m ρ c (Proc.devRef .tc main_v8)).trans
      (run_v8 (W1 m ρ c))
  have e13 : (W3 m ρ c (Proc.devRef .tc main_v13) : FVec Ideal S10 .f32)
      = g13 (g6 (V1 m ρ c main_v0_0)) (g12 (V1 m ρ c main_v0_0) (V1 m ρ c main_v0_1))
          (constant (F := Ideal) S_ .f32 0x00000000#32) :=
    (run_v13 (W2 m ρ c)).trans
      (congr (congr (congrArg g13 (run_v6 (W1 m ρ c))) (run_v12 (W1 m ρ c))) (run_cst3 (W1 m ρ c)))
  have e21 : (V4 m ρ c main_v21 : FVec Ideal S1x128 .f32)
      = g21 (g16 (g13 (g6 (V1 m ρ c main_v0_0)) (g12 (V1 m ρ c main_v0_0) (V1 m ρ c main_v0_1))
          (constant (F := Ideal) S_ .f32 0x00000000#32)) (g8 (V1 m ρ c main_v0_0))) :=
    (run_v21 (W3 m ρ c)).trans (congrArg g21 (congr (congrArg g16 e13) e8))
  refine (congrFun e21 _).trans ?_
  show g21 _ (lane b) = _
  rw [g21_at, g16_at, g13_at, g6_at, g12_at, g8_at]
  rfl

open ValueIdx in
/-- The result: the second region's sum over max(total, 1), times one. -/
theorem W6_result (c : Dev nD) :
    (W6 m ρ c (Proc.devRef .tc main_v25) : S_.Idx → Ideal .f32) ValueIdx.ix0
      = FloatOps.mulf
          (FloatOps.hostDivf ((V5 m ρ c main_v22 : S1x1.Idx → Ideal .f32) (ValueIdx.ix2 (0 : Fin 1) (0 : Fin 1)))
            ((V4 m ρ c main_v2 : S_.Idx → Ideal .f32) ValueIdx.ix0))
          Ghmc.oneF := by
  have e2 : ((W5 m ρ c (Proc.devRef .tc main_v2) : FVec Ideal S_ .f32)) ix0 = (V4 m ρ c main_v2 : S_.Idx → Ideal .f32) ix0 :=
    congrFun (W5_of_ne m ρ c main_v2 (by decide)) ix0
  refine (congrFun (run_v25 (W5 m ρ c)) ix0).trans ?_
  show FloatOps.mulf (FloatOps.hostDivf (shapeCast S_ (V5 m ρ c main_v22 : FVec Ideal S1x1 .f32) shapeCasts_S1x1_S_ ix0)
      ((W5 m ρ c (Proc.devRef .tc main_v2) : FVec Ideal S_ .f32) ix0)) (constant (F := Ideal) S_ .f32 0x3F800000#32 ix0) = _
  rw [cast11_at, e2]
  rfl

end Cert.KernelIdeal.Glue

end
-- ==== Proof.KernelValue.lean ====
/-
  The kernel program's result is the specification's loss of its three argument arrays: the last boundary's contents
  of the result buffer are the second region's sum over max(total, 1), times one; that sum is over the weight table
  the host built from the first region's counts and total; and both regions found the argument arrays as launched.
-/
import proofs.«169303_j1829656068729_1_alg».proof.Proof.Hist
import proofs.«169303_j1829656068729_1_alg».proof.Proof.Bce
import proofs.«169303_j1829656068729_1_alg».proof.Proof.Glue

noncomputable section

open Idealize.ShloMosaic Idealize.ShloMosaic.TcCoe Idealize.SL.Sem
open Idealize.ShloMosaic.Pipeline (Dat)
open Cert.KernelIdeal Cert.KernelIdeal.Gen

namespace Cert.KernelIdeal.Value

variable (m : (ℓ : Loc nD τ sig) → Buf (Elt Ideal) ℓ) (ρ : Dev nD → PrngReg)

/-- The counts the host reads are the specification's, of the launched arrays. -/
theorem counts_eq (c : Dev nD) (b : Fin 10) :
    Glue.counts m ρ c b = Ghmc.cnt (m ((c : Thread nD τ).loc main_arg0)) (m ((c : Thread nD τ).loc main_arg1)) (m ((c : Thread nD τ).loc main_arg2)) b := by
  unfold Glue.counts
  rw [← show (dat0 (V0 m ρ) c).arrAt 3 cfg0.N = V1 m ρ c main_v0_0 from hF0 m ρ c 3]
  rw [Hist.counts_final (V0 m ρ) c b, Glue.V0_arg0, Glue.V0_arg1, Glue.V0_arg2]

/-- The total the host reads is the specification's, of the launched label weights. -/
theorem total_eq (c : Dev nD) : Glue.total m ρ c = Ghmc.tot (m ((c : Thread nD τ).loc main_arg2)) := by
  unfold Glue.total
  rw [← show (dat0 (V0 m ρ) c).arrAt 4 cfg0.N = V1 m ρ c main_v0_1 from hF0 m ρ c 4]
  rw [Hist.tot_final (V0 m ρ) c, Glue.V0_arg2]

/-- The result buffer's last contents, at its one index, are the loss of the launched argument arrays. -/
theorem result_eq (c : Dev nD) :
    (W6 m ρ c (Proc.devRef .tc main_v25) : S_.Idx → Ideal .f32) ValueIdx.ix0
      = Ghmc.loss (m ((c : Thread nD τ).loc main_arg0)) (m ((c : Thread nD τ).loc main_arg1)) (m ((c : Thread nD τ).loc main_arg2)) := by
  rw [Glue.W6_result, Glue.V4_tot1, total_eq]
  rw [← show (dat1 (V4 m ρ) c).arrAt 4 cfg1.N = V5 m ρ c main_v22 from hF1 m ρ c 4]
  rw [Bce.s_final (V4 m ρ) c, Glue.V4_arg0, Glue.V4_arg1, Glue.V4_arg2]
  have htab : Bce.table (V4 m ρ) c = Ghmc.wadj (m ((c : Thread nD τ).loc main_arg0)) (m ((c : Thread nD τ).loc main_arg1)) (m ((c : Thread nD τ).loc main_arg2)) := by
    funext b
    unfold Bce.table Ghmc.wadj
    rw [Glue.V4_table m ρ c b, total_eq]
    rw [show Glue.counts m ρ c = Ghmc.cnt (m ((c : Thread nD τ).loc main_arg0)) (m ((c : Thread nD τ).loc main_arg1)) (m ((c : Thread nD τ).loc main_arg2))
      from funext (counts_eq m ρ c)]
  rw [htab]
  rfl

end Cert.KernelIdeal.Value

end
-- ==== Proof.RefScatter.lean ====
/-
  The reference's histogram step read at a bin: a scatter-add of 41943040 updates into ten zeros, the index of
  update `j` the word `idx j` (every word one of the ten), leaves at bin `b` the operand's entry plus the sum of
  the updates whose word is `b`; and the flattening of a 524288 × 80 array to 41943040 entries is a re-indexing,
  so sums over the flat index are sums over the array.
-/
import proofs.«169303_j1829656068729_1_alg».proof.Proof.Gen.ReferenceIdeal
import proofs.«169303_j1829656068729_1_alg».proof.Proof.Algebra
import Idealize.ShloMosaic.PureOps.Ideal.Laws
import Idealize.ShloMosaic.Lib.Pipeline.Value

noncomputable section

namespace Cert.ReferenceIdeal.RefValue

open Cert.ReferenceIdeal Cert.ReferenceIdeal.Gen Idealize.ShloMosaic Idealize.ShloMosaic.TcCoe

/-- The reference's scatter record: ten operand entries, one index word per update, no window axes. -/
abbrev dS := scatter_S10_S41943040x1_S41943040_n_0_0_1

/-- The record has no window axes: the operand's one axis is an inserted one, so the window coordinate of every
    update is 0. -/
theorem window_zero (j : S41943040.Idx) (a : Fin S10.rank) : dS.window j a = 0 := by
  unfold ScatterDims.window
  rw [dif_neg]
  have : a = 0 := Subsingleton.elim _ _
  subst this
  decide

/-- The start of update j on the operand's one axis is its own index word, read signed: the index array is the flat
    word array with a unit axis appended, and update j reads it at (j, 0). -/
theorem start_eq (idx : IVec S41943040 32) (j : S41943040.Idx) (a : Fin S10.rank) :
    dS.start j (broadcastInDim S41943040x1 ![0] bcast_S41943040_S41943040x1_0 idx) a = (idx j).toInt := by
  have ha : a = 0 := Subsingleton.elim _ _
  subst ha
  unfold ScatterDims.start
  rw [dif_pos (by decide)]
  congr 1
  refine broadcastInDim_apply _ _ idx _ j ?_
  intro a
  have ha : a = 0 := Subsingleton.elim _ _
  subst ha
  rw [if_neg (by decide)]
  have hj : ∀ x : Fin S41943040.rank, (j x).val = (j 0).val := fun x => by
    have hx : x = 0 := Subsingleton.elim _ _
    subst hx
    rfl
  show (j 0).val = (dS.siIdx j _ (0 : Fin 2)).val
  unfold ScatterDims.siIdx
  rw [dif_neg (by decide)]
  unfold ScatterDims.siCoord
  exact (hj _).symm

/-- Update j lands at bin b exactly when its index word is b: a word below ten reads the same signed and unsigned,
    so the landing position start + 0 is in range and is that number. -/
theorem resultIdx_iff (idx : IVec S41943040 32) (hidx : ∀ j, (idx j).toNat < 10) (j : S41943040.Idx) (b : Fin 10) :
    dS.resultIdx? j (broadcastInDim S41943040x1 ![0] bcast_S41943040_S41943040x1_0 idx) = some (ValueIdx.ix1 b)
      ↔ (idx j).toNat = b.val := by
  have hn : (idx j).toInt = ((idx j).toNat : Int) := by
    have := hidx j
    rw [BitVec.toInt_eq_toNat_of_lt (by omega)]
  have hs : ∀ a : Fin S10.rank, dS.start j (broadcastInDim S41943040x1 ![0] bcast_S41943040_S41943040x1_0 idx) a + dS.window j a
      = ((idx j).toNat : Int) := fun a => by
    rw [start_eq, window_zero, hn]; simp
  unfold ScatterDims.resultIdx?
  rw [dif_pos (fun a => by
    rw [hs a]
    have ha : a = 0 := Subsingleton.elim _ _
    subst ha
    have := hidx j
    constructor
    · omega
    · show ((idx j).toNat : Int) < ((10 : Nat) : Int)
      omega)]
  rw [Option.some.injEq]
  constructor
  · intro h
    have h0 := congrArg Fin.val (congrFun h 0)
    change (dS.start j (broadcastInDim S41943040x1 ![0] bcast_S41943040_S41943040x1_0 idx) 0 + ((dS.window j 0 : Nat) : Int)).toNat = b.val at h0
    rw [hs 0, Int.toNat_natCast] at h0
    exact h0
  · intro h
    funext a
    have ha : a = 0 := Subsingleton.elim _ _
    subst ha
    apply Fin.ext
    change (dS.start j (broadcastInDim S41943040x1 ![0] bcast_S41943040_S41943040x1_0 idx) 0 + ((dS.window j 0 : Nat) : Int)).toNat = b.val
    rw [hs 0, Int.toNat_natCast]
    exact h

/-- The scatter-add at bin `b`: the operand's entry plus the updates whose index word is `b`. -/
theorem scatterAdd_apply (z : FVec Ideal S10 .f32) (idx : IVec S41943040 32) (upd : FVec Ideal S41943040 .f32)
    (hidx : ∀ j, (idx j).toNat < 10) (b : Fin 10) :
    Host.scatterAdd (F := Ideal) scatter_S10_S41943040x1_S41943040_n_0_0_1 z
        (broadcastInDim S41943040x1 ![0] bcast_S41943040_S41943040x1_0 idx) upd (ValueIdx.ix1 b)
      = z (ValueIdx.ix1 b) + ∑ j : S41943040.Idx, if (idx j).toNat = b.val then upd j else 0 := by
  unfold Host.scatterAdd
  rw [Ideal.hostScatterAdd_def]
  unfold Ideal.hostScatterAdd
  rw [Finset.sum_filter]
  refine congrArg (fun s => z (ValueIdx.ix1 b) + s) ?_
  refine Finset.sum_congr rfl fun j _ => ?_
  by_cases h : (idx j).toNat = b.val
  · rw [if_pos h, if_pos ((resultIdx_iff idx hidx j b).2 h)]
  · rw [if_neg h, if_neg (fun e => h ((resultIdx_iff idx hidx j b).1 e))]

/-- A sum over the flattened array is the sum over the array: the flattening is a bijection of the indices. -/
theorem sum_flat (g : S524288x80.Idx → EReal) :
    ∑ j : S41943040.Idx, (shapeCast S41943040 g shapeCasts_S524288x80_S41943040) j = ∑ i : S524288x80.Idx, g i := by
  show ∑ j : S41943040.Idx, g (Shape.reshapeEquiv shapeCasts_S524288x80_S41943040 j) = _
  exact Equiv.sum_comp (Shape.reshapeEquiv shapeCasts_S524288x80_S41943040) g

end Cert.ReferenceIdeal.RefValue

end
-- ==== Proof.RefValue.lean ====
/-
  The reference's result is the specification's loss of its three argument arrays: its run's composed term, read one
  operation at a time, is the same sums — the histogram by a scatter-add over the flattened arrays, the bin weight
  by a gather from the ten-entry table (the selected entry is the one-hot sum's), the quotient by the number of
  non-empty bins moved across the validity factor.
-/
import proofs.«169303_j1829656068729_1_alg».proof.Proof.RefRead
import proofs.«169303_j1829656068729_1_alg».proof.Proof.RefScatter
import proofs.«169303_j1829656068729_1_alg».proof.Proof.Algebra
import Idealize.ShloMosaic.Lib.ValueIdx
import Idealize.ShloMosaic.Lib.ValueIdxRank1
import Idealize.ShloMosaic.Lib.Pipeline.Value
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen

/-- An array of the inputs' shape, read at the ideal instance. -/
abbrev Arr : Type := (⟨S524288x80, .f32⟩ : BufTy).Contents (Elt Ideal)

/-! ## The per-entry scalars -/

/-- The word of the float one is the extended real 1. -/
theorem one_word : Ideal.ofBits .f32 0x3F800000#32 = 1 := by
  simp [Ideal.ofBits, Ideal.ieee, -EReal.coe_mul]; norm_num

/-- The unsigned reading of a one-bit word is the signed reading of its widening to 32 bits. -/
theorem bit_float (b : BitVec 1) :
    FloatOps.uitofp (F := Ideal) .f32 b = FloatOps.sitofp (F := Ideal) .f32 (BitVec.setWidth 32 b) := by
  rcases BitVec.eq_zero_or_eq_one b with rfl | rfl <;> rfl

/-- The validity stage at an entry is the specification's indicator of a positive label weight. -/
theorem valid_at (l : Arr) (i : S524288x80.Idx) : Read.val_main_v10 (F := Ideal) l i = Ghmc.vld (l i) := by
  rw [Read.val_main_v10_apply, Read.val_main_v9_apply, Read.val_main_v8_apply, Read.val_main_cst_1_apply]
  exact bit_float _

/-- The clipped bin stage at an entry is the specification's bin word. -/
theorem bin_at (x t : Arr) (i : S524288x80.Idx) : Read.val_main_v17 (F := Ideal) x t i = Ghmc.bin (x i) (t i) := by
  rw [Read.val_main_v17_apply, Read.val_main_call0_v4_apply, Read.val_main_call0_v3_apply, Read.val_main_c_5_apply,
    Read.val_main_call0_v2_apply, Read.val_main_call0_v1_apply, Read.val_main_call0_v0_apply, Read.val_main_c_apply,
    Read.val_main_v16_apply, Read.val_main_v15_apply, Read.val_main_v14_apply, Read.val_main_v13_apply,
    Read.val_main_cst_4_apply, Read.val_main_v7_apply, Read.val_main_v6_apply, Read.val_main_v5_apply,
    Read.val_main_v4_apply, Read.val_main_cst_0_apply, Read.val_main_v3_apply, Read.val_main_v2_apply,
    Read.val_main_cst_apply, Read.val_main_v1_apply, Read.val_main_v0_apply]
  unfold Ghmc.bin Ghmc.tenF
  simp only [Ideal.hostUnary_floor_def, Ideal.floor_def, Ideal.hostAbsf_def, Ideal.hostDivf_def, Ideal.hostUnary_exp_def,
    Ideal.hostNegf_def, Ideal.negf_def, Ideal.logistic_def, Ideal.logistic, Ideal.addf_def, Ideal.ofBits_def, one_word]

/-- The cross-entropy stage at an entry is the specification's. -/
theorem bce_at (x t : Arr) (i : S524288x80.Idx) : Read.val_main_v56 (F := Ideal) x t i = Ghmc.bce (x i) (t i) := by
  rw [Read.val_main_v56_apply, Read.val_main_v55_apply, Read.val_main_v54_apply, Read.val_main_v53_apply,
    Read.val_main_v52_apply, Read.val_main_v51_apply, Read.val_main_v50_apply, Read.val_main_v49_apply,
    Read.val_main_v48_apply, Read.val_main_cst_16_apply]
  unfold Ghmc.bce Ghmc.zeroF
  simp only [Ideal.hostUnary_log1p_def, Ideal.log1p_def, Ideal.hostUnary_exp_def, Ideal.exp_def, Ideal.hostNegf_def,
    Ideal.negf_def, Ideal.hostAbsf_def, Ideal.subf_def, Ideal.ofBits_def, Ideal.ofBits_zero_f32, zero_sub]

/-! ## The totals -/

/-- The first whole-array sum is the specification's number of valid entries. -/
theorem total_at (l : Arr) (i : S_.Idx) : Read.val_main_v11 (F := Ideal) l i = Ghmc.tot l := by
  rw [Read.val_main_v11_apply, Read.val_main_cst_2_apply, Ideal.ofBits_def, Ideal.ofBits_zero_f32, zero_add]
  exact Finset.sum_congr rfl fun j _ => valid_at l j

/-- The divisor of the result: the number of valid entries, at least one. -/
theorem divisor_at (l : Arr) (i : S_.Idx) :
    Read.val_main_v12 (F := Ideal) l i = FloatOps.maximumf (Ghmc.tot l) Ghmc.oneF := by
  rw [Read.val_main_v12_apply, total_at, Read.val_main_cst_3_apply]
  rfl

/-! ## The index normalisation is the identity on a bin word -/

/-- A word whose signed reading is its unsigned one is not below zero, so "add ten where negative" leaves it. -/
theorem wrap_id (k : BitVec 32) (hk : k.toInt = (k.toNat : Int)) :
    Scalar.select (IntOp.cmpi .slt k 0#32) (IntOp.addi k 10#32) k = k := by
  have h : k.slt 0#32 = false := by
    simp [BitVec.slt, hk]
  simp [Scalar.select, IntOp.cmpi, h]

/-- The flattening read at a flat index: the entry at row `j / 80`, lane `j % 80`. -/
theorem flat_at {α : Type} (g : S524288x80.Idx → α) (j : S41943040.Idx) :
    shapeCast S41943040 g shapeCasts_S524288x80_S41943040 j = g (Read.idx_main_v19 j) := by
  refine shapeCast_apply g shapeCasts_S524288x80_S41943040 j _ ?_
  rw [Shape.rowMajor_val_two, Shape.rowMajor_val_one]
  exact Nat.div_add_mod' _ _

/-- The scatter's index of flat entry `j` is the bin word of the entry it flattens. -/
theorem scatter_idx_at (x t : Arr) (j : S41943040.Idx) :
    Read.val_main_v25 (F := Ideal) x t j = Ghmc.bin (x (Read.idx_main_v19 j)) (t (Read.idx_main_v19 j)) := by
  rw [Read.val_main_v25_apply, Read.val_main_v22_apply, Read.val_main_v21_apply, Read.val_main_c_7_apply,
    Read.val_main_v24_apply, Read.val_main_v23_apply, Read.val_main_c_8_apply, Read.val_main_v19_apply, bin_at]
  exact wrap_id _ (Ghmc.bin_toInt _ _)

/-- The gather's start index at an entry is the entry's bin word. -/
theorem gather_idx_at (x t : Arr) (i : S524288x80.Idx) :
    Read.val_main_v41 (F := Ideal) x t i = Ghmc.bin (x i) (t i) := by
  rw [Read.val_main_v41_apply, Read.val_main_v38_apply, Read.val_main_v37_apply, Read.val_main_c_13_apply,
    Read.val_main_v40_apply, Read.val_main_v39_apply, Read.val_main_c_14_apply, bin_at]
  exact wrap_id _ (Ghmc.bin_toInt _ _)

/-! ## The histogram -/

/-- The scatter-add into ten zeros leaves at bin `b` the specification's count of the valid entries of that bin. -/
theorem hist_at (x t l : Arr) (b : Fin 10) :
    Read.val_main_v27 (F := Ideal) x t l (ValueIdx.ix1 b) = Ghmc.cnt x t l b := by
  have hidx : ∀ j, (Read.val_main_v25 (F := Ideal) x t j).toNat < 10 := fun j => by
    rw [scatter_idx_at]; exact Ghmc.bin_lt _ _
  unfold Read.val_main_v27 Read.val_main_v26
  rw [scatterAdd_apply (Read.val_main_v18 (F := Ideal)) (Read.val_main_v25 (F := Ideal) x t)
    (Read.val_main_v20 (F := Ideal) l) hidx b]
  rw [Read.val_main_v18_apply, Read.val_main_cst_6_apply, Ideal.ofBits_def, Ideal.ofBits_zero_f32, zero_add]
  unfold Ghmc.cnt
  rw [← sum_flat (fun i => Ghmc.hit (Ghmc.bin (x i) (t i)) (Ghmc.binw b) * Ghmc.vld (l i))]
  refine Finset.sum_congr rfl fun j _ => ?_
  rw [flat_at, scatter_idx_at, Read.val_main_v20_apply, valid_at, Ghmc.hit_eq]
  split_ifs
  · exact (one_mul _).symm
  · exact (zero_mul _).symm

/-! ## The weight table -/

/-- The table entry of bin `b` before the quotient by the number of non-empty bins: the number of valid entries (at
    least one) over the bin's count (at least one) where the bin is not empty, zero where it is. -/
def rawWeight (x t l : Arr) (b : Fin 10) : Ghmc.R :=
  Scalar.select (FloatOps.cmpf (F := Ideal) .ogt (Ghmc.cnt x t l b) Ghmc.zeroF)
    (FloatOps.hostDivf (FloatOps.maximumf (Ghmc.tot l) Ghmc.oneF) (FloatOps.maximumf (Ghmc.cnt x t l b) Ghmc.oneF))
    Ghmc.zeroF

/-- The number of non-empty bins, at least one. -/
def nonEmpty (x t l : Arr) : Ghmc.R :=
  FloatOps.maximumf
    (∑ b' : Fin 10, FloatOps.uitofp (F := Ideal) .f32 (FloatOps.cmpf (F := Ideal) .ogt (Ghmc.cnt x t l b') Ghmc.zeroF))
    Ghmc.oneF

/-- The specification's adjusted weight is the raw entry over the number of non-empty bins. -/
theorem wadj_eq (x t l : Arr) (b : Fin 10) :
    Ghmc.wadj x t l b = FloatOps.hostDivf (rawWeight x t l b) (nonEmpty x t l) := rfl

/-- The table the gather reads, at bin `b`. -/
theorem table_at (x t l : Arr) (b : Fin 10) :
    Read.val_main_v36 (F := Ideal) x t l (ValueIdx.ix1 b) = rawWeight x t l b := by
  rw [Read.val_main_v36_apply, Read.val_main_v29_apply, Read.val_main_v28_apply, Read.val_main_cst_9_apply,
    Read.val_main_v35_apply, Read.val_main_v34_apply, divisor_at, Read.val_main_v33_apply, Read.val_main_v32_apply,
    Read.val_main_cst_11_apply, Read.val_main_call1_v1_apply, Read.val_main_call1_v0_apply, Read.val_main_cst_12_apply,
    hist_at]
  rfl

/-- The number of non-empty bins as the reference computes it: zero plus the ten indicators, at least one. -/
theorem nonEmpty_at (x t l : Arr) (i : S_.Idx) :
    Read.val_main_v45 (F := Ideal) x t l i = nonEmpty x t l := by
  rw [Read.val_main_v45_apply, Read.val_main_v31_apply, Read.val_main_cst_10_apply, Read.val_main_cst_15_apply,
    Ideal.ofBits_def, Ideal.ofBits_zero_f32, zero_add]
  unfold nonEmpty
  rw [← Equiv.sum_comp (ValueIdx.idxEquiv1 (n := 10)).symm]
  refine congrArg (fun s => FloatOps.maximumf (F := Ideal) (φ := .f32) s Ghmc.oneF) (Finset.sum_congr rfl fun b _ => ?_)
  show Read.val_main_v30 (F := Ideal) x t l (ValueIdx.ix1 b) = _
  rw [Read.val_main_v30_apply, Read.val_main_v29_apply, Read.val_main_v28_apply, Read.val_main_cst_9_apply, hist_at]
  rfl

/-! ## The gather -/

/-- The gather's start index at entry `i` is read at `i`: the added unit axis drops. -/
theorem start_at (x t : Arr) (i : S524288x80.Idx) :
    Read.val_main_v42 (F := Ideal) x t (ValueIdx.takeIdx i) = Ghmc.bin (x i) (t i) := by
  rw [Read.val_main_v42_apply]
  have e : Read.idx_main_v42 (ValueIdx.takeIdx i) = i := funext fun a => Fin.ext (by
    match a with
    | ⟨0, _⟩ => rfl
    | ⟨1, _⟩ => rfl)
  rw [e, gather_idx_at]

/-- The gathered weight of an entry is the table's entry at the entry's bin. -/
theorem gather_at (x t l : Arr) (i : S524288x80.Idx) :
    Read.val_main_v43 (F := Ideal) x t l i
      = rawWeight x t l ⟨(Ghmc.bin (x i) (t i)).toNat, Ghmc.bin_lt _ _⟩ := by
  unfold Read.val_main_v43
  have hd : gather_S10_S524288x80x1_S524288x80_n_0_n_n_0_2_1
      = ValueIdx.takeDims 10 524288 80 gather_S10_S524288x80x1_S524288x80_n_0_n_n_0_2_1_wf := rfl
  rw [hd, ValueIdx.gather_take_apply (by decide), ← table_at]
  refine congrArg _ (congrArg ValueIdx.ix1 (Fin.ext ?_))
  show min (Read.val_main_v42 (F := Ideal) x t (ValueIdx.takeIdx i)).toInt.toNat (10 - 1) = _
  rw [start_at, Ghmc.bin_toInt, Int.toNat_natCast]
  exact Nat.min_eq_left (by have := Ghmc.bin_lt (x i) (t i); omega)

/-! ## The weighted entry and the result -/

/-- The word of the float zero is the extended real 0. -/
theorem zero_word : FloatOps.ofBits (F := Ideal) .f32 0x00000000#32 = 0 := Ideal.ofBits_zero_f32

/-- The weight of an entry as the reference computes it — the gathered raw weight times the validity indicator, the
    product over the number of non-empty bins — is the specification's picked adjusted weight times the indicator: the
    divisor is a nonzero real, so the quotient moves across the factor. -/
theorem weight_at (x t l : Arr) (i : S524288x80.Idx) :
    Read.val_main_v47 (F := Ideal) x t l i
      = Ghmc.pick (Ghmc.bin (x i) (t i)) (Ghmc.wadj x t l) * Ghmc.vld (l i) := by
  rw [Read.val_main_v47_apply, Read.val_main_v46_apply, nonEmpty_at, Read.val_main_v44_apply, gather_at, valid_at,
    Ghmc.pick_eq _ (Ghmc.bin_lt _ _), wadj_eq]
  obtain ⟨d, hd, he⟩ := Ghmc.nne_real (Ghmc.cnt x t l)
  have he' : nonEmpty x t l = ((d : EReal) : Ghmc.R) := he
  rw [he', Ideal.mulf_def]
  exact Ghmc.div_mul_swap _ _ d hd

/-- The last stage at its one index is the specification's loss: zero plus the sum of the weighted cross-entropies, over
    the number of valid entries (at least one), times one. -/
theorem stage_eq (x t l : Arr) : Read.val_main_v60 (F := Ideal) x t l ValueIdx.ix0 = Ghmc.loss x t l := by
  rw [Read.val_main_v60_apply, Read.val_main_v59_apply, Read.val_main_v58_apply, divisor_at,
    Read.val_main_cst_17_apply, Read.val_main_cst_18_apply, zero_word, zero_add]
  have hsum : ∑ j : S524288x80.Idx, Read.val_main_v57 (F := Ideal) x t l j
      = ∑ i : Ghmc.Data.Idx,
          (Ghmc.pick (Ghmc.bin (x i) (t i)) (Ghmc.wadj x t l) * Ghmc.vld (l i)) * Ghmc.bce (x i) (t i) :=
    Finset.sum_congr rfl fun i _ => by
      rw [Read.val_main_v57_apply, weight_at, bce_at]
      rfl
  rw [hsum]
  rfl

/-- The reference run's result, at its one index, is the loss of the launched argument arrays. -/
theorem result_eq (m : (ℓ : Loc nD τ sig) → Buf (Elt Ideal) ℓ) (c : Dev nD) :
    (Cert.ReferenceIdeal.Value.res_main_v60 (F := Ideal) m c : S_.Idx → Ideal .f32) ValueIdx.ix0
      = Ghmc.loss (m ((c.tc : Thread nD τ).loc main_arg0)) (m ((c.tc : Thread nD τ).loc main_arg1)) (m ((c.tc : Thread nD τ).loc main_arg2)) := by
  rw [Read.val_main_v60_eq]
  exact stage_eq _ _ _

end Cert.ReferenceIdeal.RefValue

end
-- ==== Proof.lean ====
/-
  The certificate of the gradient-harmonized cross-entropy loss: a two-pass kernel (a histogram pass that counts the
  valid entries of each of ten gradient-magnitude bins and all valid entries, then a pass that sums the per-bin-weighted
  cross-entropies) against the plain reference (a scatter-add histogram, a gather of the bin weights, one sum).

  Both programs compute, at the ideal instance, the one function `Ghmc.loss` of the three input arrays
  (Proof/Spec.lean). The kernel program's run is its generated frame's launch with the result buffer named
  (Proof/KernelRun.lean), its value read region by region (Proof/Hist.lean, Proof/Bce.lean) and through the host
  operations between them (Proof/Glue.lean, Proof/KernelValue.lean). The reference's run is read one operation at a
  time (Proof/RefRun.lean, Proof/RefRead.lean, Proof/RefValue.lean). The two differ only in where the quotient by the
  number of non-empty bins sits and in how a bin's weight is selected, and neither difference needs the inputs to be
  finite: the precondition is not used. The ideal pass rewrote nothing, so `preserves` is `True`.
-/
import proofs.«169303_j1829656068729_1_alg».proof.Defs
import proofs.«169303_j1829656068729_1_alg».proof.Proof.Gen.Kernel
import proofs.«169303_j1829656068729_1_alg».proof.Proof.Gen.Kernel.Frame
import proofs.«169303_j1829656068729_1_alg».proof.Proof.Gen.KernelIdeal
import proofs.«169303_j1829656068729_1_alg».proof.Proof.Gen.KernelIdeal.Frame
import proofs.«169303_j1829656068729_1_alg».proof.Proof.Gen.ReferenceIdeal
import proofs.«169303_j1829656068729_1_alg».proof.Proof.Gen.Pre_finite_inputs
import proofs.«169303_j1829656068729_1_alg».proof.Proof.KernelRun
import proofs.«169303_j1829656068729_1_alg».proof.Proof.KernelValue
import proofs.«169303_j1829656068729_1_alg».proof.Proof.RefValue
import Idealize.ShloMosaic.Adequacy
import Idealize.ShloMosaic.Init

noncomputable section

namespace Cert.Proof

open Idealize.ShloMosaic Idealize.ShloMosaic.TcCoe Idealize.SL.Sem

/-- A rank-0 buffer is determined by its one entry. -/
theorem scalar_ext {α : Type} (f g : (⟨0, ![]⟩ : Shape).Idx → α) (h : f ValueIdx.ix0 = g ValueIdx.ix0) : f = g := by
  funext i
  have : i = ValueIdx.ix0 := funext fun a => a.elim0
  rw [this, h]

/-- From memories agreeing on the arguments both idealized programs end with the result buffer at the loss of the
    kernel program's launched arrays. -/
theorem algebraic : Cert.algebraic_KernelIdeal_ReferenceIdeal := by
  intro m ρ m' ρ' _ hagree
  refine ⟨fun c => fun _ => Ghmc.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Value.run_result (F := Ideal) m ρ)
    exact scalar_ext _ _ (Cert.KernelIdeal.Value.result_eq m ρ c)
  · refine (θ_run Cert.ReferenceIdeal.defs _ _).mono (fun r h c => ⟨(h c).1.trans ?_, (h c).2⟩)
      (Cert.ReferenceIdeal.Value.run (F := Ideal) m' ρ')
    refine scalar_ext _ _ ?_
    rw [Cert.ReferenceIdeal.RefValue.result_eq m' c, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
